-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S128x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn_part1 {F : FTy → Type} [FloatOps F] (main_v10 : IVec S_ 1) (main_v15 : IVec S16384x512 1) (main_c_5 : IVec S_ 1) : IVec S_ 1 :=
  let main_v16 : IVec S_ 1 := (fun x v => Host.reduce IntOp.andi x v reducesTo_S16384x512_S_d0_1 h_S_) main_v15 main_c_5
  let main_v17 : IVec S_ 1 := andi main_v10 main_v16
  main_v17

def fn {F : FTy → Type} [FloatOps F] (main_arg0 : IVec S16384x512 32) (main_arg1 : IVec S16384x512 32) (main_arg2 : FVec F S16384x512 .f32) (main_arg3 : IVec S16384 32) : IVec S_ 1 :=
  let main_v0 : FVec F S16384x512 .f32 := Host.absf main_arg2
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_c_0 : IVec S_ 32 := constantI S_ 32 0#32
  let main_v4 : IVec S16384x512 32 := broadcastInDim S16384x512 ![] bcast_S_S16384x512 main_c_0
  let main_v5 : IVec S16384x512 1 := cmpi .sge main_arg0 main_v4
  let main_c_1 : IVec S_ 32 := constantI S_ 32 400#32
  let main_v6 : IVec S16384x512 32 := broadcastInDim S16384x512 ![] bcast_S_S16384x512 main_c_1
  let main_v7 : IVec S16384x512 1 := cmpi .slt main_arg0 main_v6
  let main_v8 : IVec S16384x512 1 := andi main_v5 main_v7
  let main_c_2 : IVec S_ 1 := constantI S_ 1 1#1
  let main_v9 : IVec S_ 1 := (fun x v => Host.reduce IntOp.andi x v reducesTo_S16384x512_S_d0_1 h_S_) main_v8 main_c_2
  let main_v10 : IVec S_ 1 := andi main_v3 main_v9
  let main_c_3 : IVec S_ 32 := constantI S_ 32 0#32
  let main_v11 : IVec S16384x512 32 := broadcastInDim S16384x512 ![] bcast_S_S16384x512 main_c_3
  let main_v12 : IVec S16384x512 1 := cmpi .sge main_arg1 main_v11
  let main_c_4 : IVec S_ 32 := constantI S_ 32 100#32
  let main_v13 : IVec S16384x512 32 := broadcastInDim S16384x512 ![] bcast_S_S16384x512 main_c_4
  let main_v14 : IVec S16384x512 1 := cmpi .slt main_arg1 main_v13
  let main_v15 : IVec S16384x512 1 := andi main_v12 main_v14
  let main_c_5 : IVec S_ 1 := constantI S_ 1 1#1
  fn_part1 (F := F) main_v10 main_v15 main_c_5
-- ==== Kernel.lean ====
abbrev S16384x512 : Shape := ⟨2, ![16384, 512]⟩
abbrev S16384 : Shape := ⟨1, ![16384]⟩
abbrev S16384x1 : Shape := ⟨2, ![16384, 1]⟩
abbrev S16384x501 : Shape := ⟨2, ![16384, 501]⟩
abbrev S128x512 : Shape := ⟨2, ![128, 512]⟩
abbrev S128x1 : Shape := ⟨2, ![128, 1]⟩
abbrev S128x501 : Shape := ⟨2, ![128, 501]⟩
abbrev S1x32x1 : Shape := ⟨3, ![1, 32, 1]⟩
abbrev S128x1x512 : Shape := ⟨3, ![128, 1, 512]⟩
abbrev S128x32x512 : Shape := ⟨3, ![128, 32, 512]⟩
abbrev S1x32x512 : Shape := ⟨3, ![1, 32, 512]⟩
abbrev S32x512 : Shape := ⟨2, ![32, 512]⟩
abbrev S256x512 : Shape := ⟨2, ![256, 512]⟩
abbrev S256x256 : Shape := ⟨2, ![256, 256]⟩
abbrev S32x32 : Shape := ⟨2, ![32, 32]⟩
abbrev S20x20 : Shape := ⟨2, ![20, 20]⟩
abbrev S1x400 : Shape := ⟨2, ![1, 400]⟩
abbrev S10x10 : Shape := ⟨2, ![10, 10]⟩
abbrev S1x100 : Shape := ⟨2, ![1, 100]⟩
abbrev S128x400 : Shape := ⟨2, ![128, 400]⟩
abbrev S128x100 : Shape := ⟨2, ![128, 100]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S16384x512, .i32⟩
  | .hbm, ⟨1, _⟩ => ⟨S16384x512, .i32⟩
  | .hbm, ⟨2, _⟩ => ⟨S16384x512, .f32⟩
  | .hbm, ⟨3, _⟩ => ⟨S16384, .i32⟩
  | .hbm, ⟨4, _⟩ => ⟨S16384x1, .i32⟩
  | .hbm, ⟨5, _⟩ => ⟨S16384x501, .f32⟩
  | .local _ .vmem, ⟨0, _⟩ => ⟨S128x512, .i32⟩
  | .local _ .vmem, ⟨1, _⟩ => ⟨S128x512, .i32⟩
  | .local _ .vmem, ⟨2, _⟩ => ⟨S128x512, .i32⟩
  | .local _ .vmem, ⟨3, _⟩ => ⟨S128x512, .i32⟩
  | .local _ .vmem, ⟨4, _⟩ => ⟨S128x512, .f32⟩
  | .local _ .vmem, ⟨5, _⟩ => ⟨S128x512, .f32⟩
  | .local _ .vmem, ⟨6, _⟩ => ⟨S128x1, .i32⟩
  | .local _ .vmem, ⟨7, _⟩ => ⟨S128x1, .i32⟩
  | .local _ .vmem, ⟨8, _⟩ => ⟨S128x501, .f32⟩
  | .local _ .vmem, ⟨9, _⟩ => ⟨S128x501, .f32⟩
  | _, _ => ⟨S16384x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x501 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384_S16384x1 : S16384.ShapeCasts S16384x1
  inb_S128x512_S128x512_0_0 : ∀ a, (![0, 0] : Fin 2 → Nat) a + S128x512.size a ≤ S128x512.size a
  h_S128x512 : 0 < S128x512.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  natLt_1_32 : 1 < 32
  iota_S1x32x1_d1_w32 : S1x32x1.Iotas .tc 32 [1]
  shapeCasts_S128x512_S128x1x512 : S128x512.ShapeCasts S128x1x512
  broadcasts_S128x1x512_S128x32x512 : S128x1x512.Broadcasts S128x32x512
  broadcasts_S1x32x1_S128x32x512 : S1x32x1.Broadcasts S128x32x512
  bitsLt_bf16_f32 : FTy.bits .bf16 < FTy.bits .f32
  slices_S128x32x512_o0_0_0_S1x32x512 : S128x32x512.Slices ![0, 0, 0] S1x32x512
  shapeCasts_S1x32x512_S32x512 : S1x32x512.ShapeCasts S32x512
  slices_S128x32x512_o1_0_0_S1x32x512 : S128x32x512.Slices ![1, 0, 0] S1x32x512
  slices_S128x32x512_o2_0_0_S1x32x512 : S128x32x512.Slices ![2, 0, 0] S1x32x512
  slices_S128x32x512_o3_0_0_S1x32x512 : S128x32x512.Slices ![3, 0, 0] S1x32x512
  slices_S128x32x512_o4_0_0_S1x32x512 : S128x32x512.Slices ![4, 0, 0] S1x32x512
  slices_S128x32x512_o5_0_0_S1x32x512 : S128x32x512.Slices ![5, 0, 0] S1x32x512
  slices_S128x32x512_o6_0_0_S1x32x512 : S128x32x512.Slices ![6, 0, 0] S1x32x512
  slices_S128x32x512_o7_0_0_S1x32x512 : S128x32x512.Slices ![7, 0, 0] S1x32x512
  concatenates_S32x512_S32x512_S32x512_S32x512_S32x512_S32x512_S32x512_S32x512_S256x512_d0 : Shape.Concatenates [S32x512, S32x512, S32x512, S32x512, S32x512, S32x512, S32x512, S32x512] S256x512 0
  slices_S256x256_o0_0_S32x32 : S256x256.Slices ![0, 0] S32x32
  slices_S32x32_o0_0_S20x20 : S32x32.Slices ![0, 0] S20x20
  shapeCasts_S20x20_S1x400 : S20x20.ShapeCasts S1x400
  slices_S32x32_o20_20_S10x10 : S32x32.Slices ![20, 20] S10x10
  shapeCasts_S10x10_S1x100 : S10x10.ShapeCasts S1x100
  slices_S256x256_o32_32_S32x32 : S256x256.Slices ![32, 32] S32x32
  slices_S256x256_o64_64_S32x32 : S256x256.Slices ![64, 64] S32x32
  slices_S256x256_o96_96_S32x32 : S256x256.Slices ![96, 96] S32x32
  slices_S256x256_o128_128_S32x32 : S256x256.Slices ![128, 128] S32x32
  slices_S256x256_o160_160_S32x32 : S256x256.Slices ![160, 160] S32x32
  slices_S256x256_o192_192_S32x32 : S256x256.Slices ![192, 192] S32x32
  slices_S256x256_o224_224_S32x32 : S256x256.Slices ![224, 224] S32x32
  slices_S128x32x512_o8_0_0_S1x32x512 : S128x32x512.Slices ![8, 0, 0] S1x32x512
  slices_S128x32x512_o9_0_0_S1x32x512 : S128x32x512.Slices ![9, 0, 0] S1x32x512
  slices_S128x32x512_o10_0_0_S1x32x512 : S128x32x512.Slices ![10, 0, 0] S1x32x512
  slices_S128x32x512_o11_0_0_S1x32x512 : S128x32x512.Slices ![11, 0, 0] S1x32x512
  slices_S128x32x512_o12_0_0_S1x32x512 : S128x32x512.Slices ![12, 0, 0] S1x32x512
  slices_S128x32x512_o13_0_0_S1x32x512 : S128x32x512.Slices ![13, 0, 0] S1x32x512
  slices_S128x32x512_o14_0_0_S1x32x512 : S128x32x512.Slices ![14, 0, 0] S1x32x512
  slices_S128x32x512_o15_0_0_S1x32x512 : S128x32x512.Slices ![15, 0, 0] S1x32x512
  slices_S128x32x512_o16_0_0_S1x32x512 : S128x32x512.Slices ![16, 0, 0] S1x32x512
  slices_S128x32x512_o17_0_0_S1x32x512 : S128x32x512.Slices ![17, 0, 0] S1x32x512
  slices_S128x32x512_o18_0_0_S1x32x512 : S128x32x512.Slices ![18, 0, 0] S1x32x512
  slices_S128x32x512_o19_0_0_S1x32x512 : S128x32x512.Slices ![19, 0, 0] S1x32x512
  slices_S128x32x512_o20_0_0_S1x32x512 : S128x32x512.Slices ![20, 0, 0] S1x32x512
  slices_S128x32x512_o21_0_0_S1x32x512 : S128x32x512.Slices ![21, 0, 0] S1x32x512
  slices_S128x32x512_o22_0_0_S1x32x512 : S128x32x512.Slices ![22, 0, 0] S1x32x512
  slices_S128x32x512_o23_0_0_S1x32x512 : S128x32x512.Slices ![23, 0, 0] S1x32x512
  slices_S128x32x512_o24_0_0_S1x32x512 : S128x32x512.Slices ![24, 0, 0] S1x32x512
  slices_S128x32x512_o25_0_0_S1x32x512 : S128x32x512.Slices ![25, 0, 0] S1x32x512
  slices_S128x32x512_o26_0_0_S1x32x512 : S128x32x512.Slices ![26, 0, 0] S1x32x512
  slices_S128x32x512_o27_0_0_S1x32x512 : S128x32x512.Slices ![27, 0, 0] S1x32x512
  slices_S128x32x512_o28_0_0_S1x32x512 : S128x32x512.Slices ![28, 0, 0] S1x32x512
  slices_S128x32x512_o29_0_0_S1x32x512 : S128x32x512.Slices ![29, 0, 0] S1x32x512
  slices_S128x32x512_o30_0_0_S1x32x512 : S128x32x512.Slices ![30, 0, 0] S1x32x512
  slices_S128x32x512_o31_0_0_S1x32x512 : S128x32x512.Slices ![31, 0, 0] S1x32x512
  slices_S128x32x512_o32_0_0_S1x32x512 : S128x32x512.Slices ![32, 0, 0] S1x32x512
  slices_S128x32x512_o33_0_0_S1x32x512 : S128x32x512.Slices ![33, 0, 0] S1x32x512
  slices_S128x32x512_o34_0_0_S1x32x512 : S128x32x512.Slices ![34, 0, 0] S1x32x512
  slices_S128x32x512_o35_0_0_S1x32x512 : S128x32x512.Slices ![35, 0, 0] S1x32x512
  slices_S128x32x512_o36_0_0_S1x32x512 : S128x32x512.Slices ![36, 0, 0] S1x32x512
  slices_S128x32x512_o37_0_0_S1x32x512 : S128x32x512.Slices ![37, 0, 0] S1x32x512
  slices_S128x32x512_o38_0_0_S1x32x512 : S128x32x512.Slices ![38, 0, 0] S1x32x512
  slices_S128x32x512_o39_0_0_S1x32x512 : S128x32x512.Slices ![39, 0, 0] S1x32x512
  slices_S128x32x512_o40_0_0_S1x32x512 : S128x32x512.Slices ![40, 0, 0] S1x32x512
  slices_S128x32x512_o41_0_0_S1x32x512 : S128x32x512.Slices ![41, 0, 0] S1x32x512
  slices_S128x32x512_o42_0_0_S1x32x512 : S128x32x512.Slices ![42, 0, 0] S1x32x512
  slices_S128x32x512_o43_0_0_S1x32x512 : S128x32x512.Slices ![43, 0, 0] S1x32x512
  slices_S128x32x512_o44_0_0_S1x32x512 : S128x32x512.Slices ![44, 0, 0] S1x32x512
  slices_S128x32x512_o45_0_0_S1x32x512 : S128x32x512.Slices ![45, 0, 0] S1x32x512
  slices_S128x32x512_o46_0_0_S1x32x512 : S128x32x512.Slices ![46, 0, 0] S1x32x512
  slices_S128x32x512_o47_0_0_S1x32x512 : S128x32x512.Slices ![47, 0, 0] S1x32x512
  slices_S128x32x512_o48_0_0_S1x32x512 : S128x32x512.Slices ![48, 0, 0] S1x32x512
  slices_S128x32x512_o49_0_0_S1x32x512 : S128x32x512.Slices ![49, 0, 0] S1x32x512
  slices_S128x32x512_o50_0_0_S1x32x512 : S128x32x512.Slices ![50, 0, 0] S1x32x512
  slices_S128x32x512_o51_0_0_S1x32x512 : S128x32x512.Slices ![51, 0, 0] S1x32x512
  slices_S128x32x512_o52_0_0_S1x32x512 : S128x32x512.Slices ![52, 0, 0] S1x32x512
  slices_S128x32x512_o53_0_0_S1x32x512 : S128x32x512.Slices ![53, 0, 0] S1x32x512
  slices_S128x32x512_o54_0_0_S1x32x512 : S128x32x512.Slices ![54, 0, 0] S1x32x512
  slices_S128x32x512_o55_0_0_S1x32x512 : S128x32x512.Slices ![55, 0, 0] S1x32x512
  slices_S128x32x512_o56_0_0_S1x32x512 : S128x32x512.Slices ![56, 0, 0] S1x32x512
  slices_S128x32x512_o57_0_0_S1x32x512 : S128x32x512.Slices ![57, 0, 0] S1x32x512
  slices_S128x32x512_o58_0_0_S1x32x512 : S128x32x512.Slices ![58, 0, 0] S1x32x512
  slices_S128x32x512_o59_0_0_S1x32x512 : S128x32x512.Slices ![59, 0, 0] S1x32x512
  slices_S128x32x512_o60_0_0_S1x32x512 : S128x32x512.Slices ![60, 0, 0] S1x32x512
  slices_S128x32x512_o61_0_0_S1x32x512 : S128x32x512.Slices ![61, 0, 0] S1x32x512
  slices_S128x32x512_o62_0_0_S1x32x512 : S128x32x512.Slices ![62, 0, 0] S1x32x512
  slices_S128x32x512_o63_0_0_S1x32x512 : S128x32x512.Slices ![63, 0, 0] S1x32x512
  slices_S128x32x512_o64_0_0_S1x32x512 : S128x32x512.Slices ![64, 0, 0] S1x32x512
  slices_S128x32x512_o65_0_0_S1x32x512 : S128x32x512.Slices ![65, 0, 0] S1x32x512
  slices_S128x32x512_o66_0_0_S1x32x512 : S128x32x512.Slices ![66, 0, 0] S1x32x512
  slices_S128x32x512_o67_0_0_S1x32x512 : S128x32x512.Slices ![67, 0, 0] S1x32x512
  slices_S128x32x512_o68_0_0_S1x32x512 : S128x32x512.Slices ![68, 0, 0] S1x32x512
  slices_S128x32x512_o69_0_0_S1x32x512 : S128x32x512.Slices ![69, 0, 0] S1x32x512
  slices_S128x32x512_o70_0_0_S1x32x512 : S128x32x512.Slices ![70, 0, 0] S1x32x512
  slices_S128x32x512_o71_0_0_S1x32x512 : S128x32x512.Slices ![71, 0, 0] S1x32x512
  slices_S128x32x512_o72_0_0_S1x32x512 : S128x32x512.Slices ![72, 0, 0] S1x32x512
  slices_S128x32x512_o73_0_0_S1x32x512 : S128x32x512.Slices ![73, 0, 0] S1x32x512
  slices_S128x32x512_o74_0_0_S1x32x512 : S128x32x512.Slices ![74, 0, 0] S1x32x512
  slices_S128x32x512_o75_0_0_S1x32x512 : S128x32x512.Slices ![75, 0, 0] S1x32x512
  slices_S128x32x512_o76_0_0_S1x32x512 : S128x32x512.Slices ![76, 0, 0] S1x32x512
  slices_S128x32x512_o77_0_0_S1x32x512 : S128x32x512.Slices ![77, 0, 0] S1x32x512
  slices_S128x32x512_o78_0_0_S1x32x512 : S128x32x512.Slices ![78, 0, 0] S1x32x512
  slices_S128x32x512_o79_0_0_S1x32x512 : S128x32x512.Slices ![79, 0, 0] S1x32x512
  slices_S128x32x512_o80_0_0_S1x32x512 : S128x32x512.Slices ![80, 0, 0] S1x32x512
  slices_S128x32x512_o81_0_0_S1x32x512 : S128x32x512.Slices ![81, 0, 0] S1x32x512
  slices_S128x32x512_o82_0_0_S1x32x512 : S128x32x512.Slices ![82, 0, 0] S1x32x512
  slices_S128x32x512_o83_0_0_S1x32x512 : S128x32x512.Slices ![83, 0, 0] S1x32x512
  slices_S128x32x512_o84_0_0_S1x32x512 : S128x32x512.Slices ![84, 0, 0] S1x32x512
  slices_S128x32x512_o85_0_0_S1x32x512 : S128x32x512.Slices ![85, 0, 0] S1x32x512
  slices_S128x32x512_o86_0_0_S1x32x512 : S128x32x512.Slices ![86, 0, 0] S1x32x512
  slices_S128x32x512_o87_0_0_S1x32x512 : S128x32x512.Slices ![87, 0, 0] S1x32x512
  slices_S128x32x512_o88_0_0_S1x32x512 : S128x32x512.Slices ![88, 0, 0] S1x32x512
  slices_S128x32x512_o89_0_0_S1x32x512 : S128x32x512.Slices ![89, 0, 0] S1x32x512
  slices_S128x32x512_o90_0_0_S1x32x512 : S128x32x512.Slices ![90, 0, 0] S1x32x512
  slices_S128x32x512_o91_0_0_S1x32x512 : S128x32x512.Slices ![91, 0, 0] S1x32x512
  slices_S128x32x512_o92_0_0_S1x32x512 : S128x32x512.Slices ![92, 0, 0] S1x32x512
  slices_S128x32x512_o93_0_0_S1x32x512 : S128x32x512.Slices ![93, 0, 0] S1x32x512
  slices_S128x32x512_o94_0_0_S1x32x512 : S128x32x512.Slices ![94, 0, 0] S1x32x512
  slices_S128x32x512_o95_0_0_S1x32x512 : S128x32x512.Slices ![95, 0, 0] S1x32x512
  slices_S128x32x512_o96_0_0_S1x32x512 : S128x32x512.Slices ![96, 0, 0] S1x32x512
  slices_S128x32x512_o97_0_0_S1x32x512 : S128x32x512.Slices ![97, 0, 0] S1x32x512
  slices_S128x32x512_o98_0_0_S1x32x512 : S128x32x512.Slices ![98, 0, 0] S1x32x512
  slices_S128x32x512_o99_0_0_S1x32x512 : S128x32x512.Slices ![99, 0, 0] S1x32x512
  slices_S128x32x512_o100_0_0_S1x32x512 : S128x32x512.Slices ![100, 0, 0] S1x32x512
  slices_S128x32x512_o101_0_0_S1x32x512 : S128x32x512.Slices ![101, 0, 0] S1x32x512
  slices_S128x32x512_o102_0_0_S1x32x512 : S128x32x512.Slices ![102, 0, 0] S1x32x512
  slices_S128x32x512_o103_0_0_S1x32x512 : S128x32x512.Slices ![103, 0, 0] S1x32x512
  slices_S128x32x512_o104_0_0_S1x32x512 : S128x32x512.Slices ![104, 0, 0] S1x32x512
  slices_S128x32x512_o105_0_0_S1x32x512 : S128x32x512.Slices ![105, 0, 0] S1x32x512
  slices_S128x32x512_o106_0_0_S1x32x512 : S128x32x512.Slices ![106, 0, 0] S1x32x512
  slices_S128x32x512_o107_0_0_S1x32x512 : S128x32x512.Slices ![107, 0, 0] S1x32x512
  slices_S128x32x512_o108_0_0_S1x32x512 : S128x32x512.Slices ![108, 0, 0] S1x32x512
  slices_S128x32x512_o109_0_0_S1x32x512 : S128x32x512.Slices ![109, 0, 0] S1x32x512
  slices_S128x32x512_o110_0_0_S1x32x512 : S128x32x512.Slices ![110, 0, 0] S1x32x512
  slices_S128x32x512_o111_0_0_S1x32x512 : S128x32x512.Slices ![111, 0, 0] S1x32x512
  slices_S128x32x512_o112_0_0_S1x32x512 : S128x32x512.Slices ![112, 0, 0] S1x32x512
  slices_S128x32x512_o113_0_0_S1x32x512 : S128x32x512.Slices ![113, 0, 0] S1x32x512
  slices_S128x32x512_o114_0_0_S1x32x512 : S128x32x512.Slices ![114, 0, 0] S1x32x512
  slices_S128x32x512_o115_0_0_S1x32x512 : S128x32x512.Slices ![115, 0, 0] S1x32x512
  slices_S128x32x512_o116_0_0_S1x32x512 : S128x32x512.Slices ![116, 0, 0] S1x32x512
  slices_S128x32x512_o117_0_0_S1x32x512 : S128x32x512.Slices ![117, 0, 0] S1x32x512
  slices_S128x32x512_o118_0_0_S1x32x512 : S128x32x512.Slices ![118, 0, 0] S1x32x512
  slices_S128x32x512_o119_0_0_S1x32x512 : S128x32x512.Slices ![119, 0, 0] S1x32x512
  slices_S128x32x512_o120_0_0_S1x32x512 : S128x32x512.Slices ![120, 0, 0] S1x32x512
  slices_S128x32x512_o121_0_0_S1x32x512 : S128x32x512.Slices ![121, 0, 0] S1x32x512
  slices_S128x32x512_o122_0_0_S1x32x512 : S128x32x512.Slices ![122, 0, 0] S1x32x512
  slices_S128x32x512_o123_0_0_S1x32x512 : S128x32x512.Slices ![123, 0, 0] S1x32x512
  slices_S128x32x512_o124_0_0_S1x32x512 : S128x32x512.Slices ![124, 0, 0] S1x32x512
  slices_S128x32x512_o125_0_0_S1x32x512 : S128x32x512.Slices ![125, 0, 0] S1x32x512
  slices_S128x32x512_o126_0_0_S1x32x512 : S128x32x512.Slices ![126, 0, 0] S1x32x512
  slices_S128x32x512_o127_0_0_S1x32x512 : S128x32x512.Slices ![127, 0, 0] S1x32x512
  concatenates_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S1x400_S128x400_d0 : Shape.Concatenates (S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: S1x400 :: []) S128x400 0
  concatenates_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S1x100_S128x100_d0 : Shape.Concatenates (S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: S1x100 :: []) S128x100 0
  iota_S128x512_d1_w32 : S128x512.Iotas .tc 32 [1]
  broadcasts_S128x1_S128x512 : S128x1.Broadcasts S128x512
  reduces_S128x512_S128 : S128x512.Reduces [1] S128
  shapeCasts_S128_S128x1 : S128.ShapeCasts S128x1
  concatenates_S128x400_S128x100_S128x1_S128x501_d1 : Shape.Concatenates [S128x400, S128x100, S128x1] S128x501 1
  inb_S128x501_S128x501_0_0 : ∀ a, (![0, 0] : Fin 2 → Nat) a + S128x501.size a ≤ S128x501.size a
  h_S128x501 : 0 < S128x501.numel
  dot_S256x512_S256x512_S256x256_1_1_0_0_n_n_wf : DotDims.WF S256x512 S256x512 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S16384x512.size a
  hwx0_0 : ∀ i : grid0.Coords, EltTy.bits .i32 = 32 ∨ (Rect.block (s := S16384x512) S128x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S16384x512.size a
  hwx0_1 : ∀ i : grid0.Coords, EltTy.bits .i32 = 32 ∨ (Rect.block (s := S16384x512) S128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S16384x512.size a
  hwx0_2 : ∀ i : grid0.Coords, EltTy.bits .f32 = 32 ∨ (Rect.block (s := S16384x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S16384x1.size a
  hwx0_3 : ∀ i : grid0.Coords, EltTy.bits .i32 = 32 ∨ (Rect.block (s := S16384x1) S128x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x501.size a ≤ S16384x501.size a
  hwx0_4 : ∀ i : grid0.Coords, EltTy.bits .f32 = 32 ∨ (Rect.block (s := S16384x501) S128x501.size (cc0_transform_4 i) (hinb0_4 i)).WholeWords (EltTy.packing .f32)

variable [Facts₀]

def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x501.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384 : Shape := ⟨1, ![16384]⟩
abbrev S_ : Shape := ⟨0, ![]⟩
abbrev S16384x400 : Shape := ⟨2, ![16384, 400]⟩
abbrev S16384x1 : Shape := ⟨2, ![16384, 1]⟩
abbrev S16384x512x1 : Shape := ⟨3, ![16384, 512, 1]⟩
abbrev S16384x512x2 : Shape := ⟨3, ![16384, 512, 2]⟩
abbrev S16384x100 : Shape := ⟨2, ![16384, 100]⟩
abbrev S512 : Shape := ⟨1, ![512]⟩
abbrev S1x512 : Shape := ⟨2, ![1, 512]⟩
abbrev S16384x501 : Shape := ⟨2, ![16384, 501]⟩

abbrev nBuf : Space → Nat
  | .hbm => 78
  | .vmem => 0
  | .smem => 0
  | _ => 0

abbrev bufTy : (tb : Table) → Fin (tcTables nBuf tb) → BufTy
  | .hbm, ⟨0, _⟩ => ⟨S16384x512, .i32⟩
  | .hbm, ⟨1, _⟩ => ⟨S16384x512, .i32⟩
  | .hbm, ⟨2, _⟩ => ⟨S16384x512, .f32⟩
  | .hbm, ⟨3, _⟩ => ⟨S16384, .i32⟩
  | .hbm, ⟨4, _⟩ => ⟨S_, .f32⟩
  | .hbm, ⟨5, _⟩ => ⟨S16384x400, .f32⟩
  | .hbm, ⟨6, _⟩ => ⟨S16384, .i32⟩
  | .hbm, ⟨7, _⟩ => ⟨S16384x1, .i32⟩
  | .hbm, ⟨8, _⟩ => ⟨S_, .i32⟩
  | .hbm, ⟨9, _⟩ => ⟨S16384x1, .i32⟩
  | .hbm, ⟨10, _⟩ => ⟨S16384x1, .i1⟩
  | .hbm, ⟨11, _⟩ => ⟨S_, .i32⟩
  | .hbm, ⟨12, _⟩ => ⟨S16384x1, .i32⟩
  | .hbm, ⟨13, _⟩ => ⟨S16384x1, .i32⟩
  | .hbm, ⟨14, _⟩ => ⟨S16384x1, .i32⟩
  | .hbm, ⟨15, _⟩ => ⟨S_, .i32⟩
  | .hbm, ⟨16, _⟩ => ⟨S16384x512, .i32⟩
  | .hbm, ⟨17, _⟩ => ⟨S16384x512, .i1⟩
  | .hbm, ⟨18, _⟩ => ⟨S_, .i32⟩
  | .hbm, ⟨19, _⟩ => ⟨S16384x512, .i32⟩
  | .hbm, ⟨20, _⟩ => ⟨S16384x512, .i32⟩
  | .hbm, ⟨21, _⟩ => ⟨S16384x512, .i32⟩
  | .hbm, ⟨22, _⟩ => ⟨S16384x512, .i32⟩
  | .hbm, ⟨23, _⟩ => ⟨S16384x512x1, .i32⟩
  | .hbm, ⟨24, _⟩ => ⟨S16384x512x1, .i32⟩
  | .hbm, ⟨25, _⟩ => ⟨S16384x512x2, .i32⟩
  | .hbm, ⟨26, _⟩ => ⟨S_, .f32⟩
  | .hbm, ⟨27, _⟩ => ⟨S16384x512, .f32⟩
  | .hbm, ⟨28, _⟩ => ⟨S16384x400, .f32⟩
  | .hbm, ⟨29, _⟩ => ⟨S_, .f32⟩
  | .hbm, ⟨30, _⟩ => ⟨S16384x400, .f32⟩
  | .hbm, ⟨31, _⟩ => ⟨S16384x400, .f32⟩
  | .hbm, ⟨32, _⟩ => ⟨S_, .f32⟩
  | .hbm, ⟨33, _⟩ => ⟨S16384x100, .f32⟩
  | .hbm, ⟨34, _⟩ => ⟨S16384, .i32⟩
  | .hbm, ⟨35, _⟩ => ⟨S16384x1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S_, .i32⟩
  | .hbm, ⟨40, _⟩ => ⟨S16384x1, .i32⟩
  | .hbm, ⟨41, _⟩ => ⟨S16384x1, .i32⟩
  | .hbm, ⟨42, _⟩ => ⟨S16384x1, .i32⟩
  | .hbm, ⟨43, _⟩ => ⟨S_, .i32⟩
  | .hbm, ⟨44, _⟩ => ⟨S16384x512, .i32⟩
  | .hbm, ⟨45, _⟩ => ⟨S16384x512, .i1⟩
  | .hbm, ⟨46, _⟩ => ⟨S_, .i32⟩
  | .hbm, ⟨47, _⟩ => ⟨S16384x512, .i32⟩
  | .hbm, ⟨48, _⟩ => ⟨S16384x512, .i32⟩
  | .hbm, ⟨49, _⟩ => ⟨S16384x512, .i32⟩
  | .hbm, ⟨50, _⟩ => ⟨S16384x512, .i32⟩
  | .hbm, ⟨51, _⟩ => ⟨S16384x512x1, .i32⟩
  | .hbm, ⟨52, _⟩ => ⟨S16384x512x1, .i32⟩
  | .hbm, ⟨53, _⟩ => ⟨S16384x512x2, .i32⟩
  | .hbm, ⟨54, _⟩ => ⟨S_, .f32⟩
  | .hbm, ⟨55, _⟩ => ⟨S16384x512, .f32⟩
  | .hbm, ⟨56, _⟩ => ⟨S16384x100, .f32⟩
  | .hbm, ⟨57, _⟩ => ⟨S_, .f32⟩
  | .hbm, ⟨58, _⟩ => ⟨S16384x100, .f32⟩
  | .hbm, ⟨59, _⟩ => ⟨S16384x100, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S512, .i32⟩
  | .hbm, ⟨65, _⟩ => ⟨S1x512, .i32⟩
  | .hbm, ⟨66, _⟩ => ⟨S16384x1, .i32⟩
  | .hbm, ⟨67, _⟩ => ⟨S16384x512, .i32⟩
  | .hbm, ⟨68, _⟩ => ⟨S16384x512, .i32⟩
  | .hbm, ⟨69, _⟩ => ⟨S16384x512, .i1⟩
  | .hbm, ⟨70, _⟩ => ⟨S16384x512, .f32⟩
  | .hbm, ⟨71, _⟩ => ⟨S16384x512, .f32⟩
  | .hbm, ⟨72, _⟩ => ⟨S_, .f32⟩
  | .hbm, ⟨73, _⟩ => ⟨S16384, .f32⟩
  | .hbm, ⟨74, _⟩ => ⟨S16384, .f32⟩
  | .hbm, ⟨75, _⟩ => ⟨S16384, .f32⟩
  | .hbm, ⟨76, _⟩ => ⟨S16384x1, .f32⟩
  | .hbm, ⟨77, _⟩ => ⟨S16384x501, .f32⟩
  | _, _ => ⟨S16384x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]

class Facts₀ : Prop where
  bcast_S_S16384x400 : S_.BroadcastsInDim S16384x400 (![] : Fin 0 → Fin S16384x400.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S_S16384x512 : S_.BroadcastsInDim S16384x512 (![] : Fin 0 → Fin S16384x512.rank)
  bcast_S16384x1_S16384x512_0_1 : S16384x1.BroadcastsInDim S16384x512 (![0, 1] : Fin 2 → Fin S16384x512.rank)
  bcast_S16384x512_S16384x512x1_0_1 : S16384x512.BroadcastsInDim S16384x512x1 (![0, 1] : Fin 2 → Fin S16384x512x1.rank)
  concatenates_S16384x512x1_S16384x512x1_S16384x512x2_d2 : Shape.Concatenates [S16384x512x1, S16384x512x1] S16384x512x2 2
  bcast_S_S16384x100 : S_.BroadcastsInDim S16384x100 (![] : Fin 0 → Fin S16384x100.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S16384_d1 : S16384x512.ReducesTo [1] S16384
  h_S_ : 0 < S_.numel
  concatenates_S16384x400_S16384x100_S16384x1_S16384x501_d1 : Shape.Concatenates [S16384x400, S16384x100, S16384x1] S16384x501 1
  scatter_S16384x400_S16384x512x2_S16384x512_n_01_01_2_wf : ScatterDims.WF S16384x400 S16384x512x2 S16384x512 [] [0, 1] [0, 1] 2
  scatter_S16384x100_S16384x512x2_S16384x512_n_01_01_2_wf : ScatterDims.WF S16384x100 S16384x512x2 S16384x512 [] [0, 1] [0, 1] 2

variable [Facts₀]

def scatter_S16384x400_S16384x512x2_S16384x512_n_01_01_2 : ScatterDims S16384x400 S16384x512x2 S16384x512 where
  updateWindowDims := []
  insertedWindowDims := [0, 1]
  scatterDimsToOperandDims := [0, 1]
  indexVectorDim := 2
  wf := scatter_S16384x400_S16384x512x2_S16384x512_n_01_01_2_wf
def scatter_S16384x100_S16384x512x2_S16384x512_n_01_01_2 : ScatterDims S16384x100 S16384x512x2 S16384x512 where
  updateWindowDims := []
  insertedWindowDims := [0, 1]
  scatterDimsToOperandDims := [0, 1]
  indexVectorDim := 2
  wf := scatter_S16384x100_S16384x512x2_S16384x512_n_01_01_2_wf

class Facts : Prop extends Facts₀ where

variable [Facts]
-- ==== Proof.MeanDef.lean ====
/-
  The last column of a block as the body computes it: `sign(a) · log1p|a|` kept where the position is below the row's
  length and zero elsewhere, summed along each row, and divided by the row's length as a float.  The sign is written as
  "where |a| > 0: minus one if a < 0, one otherwise; else a itself".
-/
import proofs.«408669_j69681549410810_3_alg».proof.Proof.Gen.KernelIdeal.Skeleton

noncomputable section

namespace Cert.Hist

open Cert.KernelIdeal Cert.KernelIdeal.Gen
open Idealize.ShloMosaic

variable {F : FTy → Type} [FloatOps F]

/-- The block's last column as the body computes it from the amounts `v10` and the lengths `v12`. -/
def meanCol (v10 : FVec F S128x512 .f32) (v12 : IVec S128x1 32) : FVec F S128x1 .f32 :=
  have v1307 : FVec F S128x512 .f32 := select (cmpf .olt v10 (constant S128x512 .f32 0x00000000#32)) (constant S128x512 .f32 0xBF800000#32) (constant S128x512 .f32 0x3F800000#32)
  have v1308 : FVec F S128x512 .f32 := absf v10
  have cst_40 : F .f32 := Scalar.ofBits .f32 0x00000000#32
  have v1309 : FVec F S128x512 .f32 := broadcast S128x512 cst_40
  have v1310 : IVec S128x512 1 := cmpf .ogt v1308 v1309
  have v1311 : FVec F S128x512 .f32 := select v1310 v1307 v10
  have v1312 : FVec F S128x512 .f32 := absf v10
  have v1313 : FVec F S128x512 .f32 := log1p v1312
  have v1314 : FVec F S128x512 .f32 := mulf v1311 v1313
  have v1315 : IVec S128x512 32 := iota .tc S128x512 32 [1] iota_S128x512_d1_w32
  have v1316 : IVec S128x512 32 := broadcastTo S128x512 v12 broadcasts_S128x1_S128x512
  have v1317 : IVec S128x512 1 := cmpi .slt v1315 v1316
  have cst_41 : F .f32 := Scalar.ofBits .f32 0x00000000#32
  have v1318 : FVec F S128x512 .f32 := broadcast S128x512 cst_41
  have v1319 : FVec F S128x512 .f32 := select v1317 v1314 v1318
  have v1320 : FVec F S128 .f32 := multiReduction .add [1] S128 v1319 0x00000000#32 reduces_S128x512_S128 (.inl rfl) rfl
  have v1321 : FVec F S128x1 .f32 := shapeCast S128x1 v1320 shapeCasts_S128_S128x1
  have v1322 : FVec F S128x1 .f32 := sitofp .f32 v12
  have v1323 : FVec F S128x1 .f32 := divf v1321 v1322
  v1323

end Cert.Hist

end
-- ==== Proof.Clean.lean ====
/-
  The block's result laid out regularly.

  The body packs eight consecutive rows' digit one-hots (each 32 digits × 512 positions) into one 256 × 512 slab, for
  the high digits and for the low digits, and multiplies the two slabs over the positions: a 256 × 256 table whose
  k-th 32 × 32 diagonal block belongs to the group's k-th row.  Of a row's diagonal block the top-left 20 × 20 corner,
  read row-major as 400 entries, is the row's `mcc` histogram, and the 10 × 10 square at (20, 20), read row-major as
  100 entries, its `tr` histogram.  The 128 rows' pieces are stacked, scaled by 1/512, and joined with the mean column.

  Here the same operations are written once for a row index `k` (group `k / 8`, place `k % 8`) instead of 128 times.
-/
import proofs.«408669_j69681549410810_3_alg».proof.Proof.MeanDef

noncomputable section

namespace Cert.Hist

open Cert.KernelIdeal Cert.KernelIdeal.Gen
open Idealize.ShloMosaic

variable {F : FTy → Type} [FloatOps F]

/-- Row `k` of a [128, 32, 512] array is a [1, 32, 512] slice of it. -/
theorem slices_row (k : Fin 128) : S128x32x512.Slices ![k.val, 0, 0] S1x32x512 :=
  ⟨rfl, fun a => by
    match a with
    | ⟨0, _⟩ => show k.val + 1 ≤ 128; omega
    | ⟨1, _⟩ => show 0 + 32 ≤ 32; omega
    | ⟨2, _⟩ => show 0 + 512 ≤ 512; omega⟩

/-- The `q`-th 32 × 32 diagonal block of a 256 × 256 table is a slice of it. -/
theorem slices_diag (q : Fin 8) : S256x256.Slices ![32 * q.val, 32 * q.val] S32x32 :=
  ⟨rfl, fun a => by
    match a with
    | ⟨0, _⟩ => show 32 * q.val + 32 ≤ 256; omega
    | ⟨1, _⟩ => show 32 * q.val + 32 ≤ 256; omega⟩

/-- Row `k`'s 32 × 512 slab of a digit one-hot. -/
def rowSlab (A : FVec F S128x32x512 .bf16) (k : Fin 128) : FVec F S32x512 .bf16 :=
  shapeCast S32x512 (extractStridedSlice S1x32x512 ![k.val, 0, 0] A (slices_row k)) shapeCasts_S1x32x512_S32x512

/-- The eight slabs of group `g`, as the list the concatenation takes. -/
def slabList (A : FVec F S128x32x512 .bf16) (g : Fin 16) : List ((s : Shape) × (s.Idx → F .bf16)) :=
  List.ofFn fun q : Fin 8 => (⟨S32x512, rowSlab A ⟨8 * g.val + q.val, by omega⟩⟩ : (s : Shape) × (s.Idx → F .bf16))

theorem slabList_concatenates (A : FVec F S128x32x512 .bf16) (g : Fin 16) :
    Shape.Concatenates ((slabList A g).map (·.1)) S256x512 0 := by
  have e : (slabList A g).map (·.1) = [S32x512, S32x512, S32x512, S32x512, S32x512, S32x512, S32x512, S32x512] := rfl
  rw [e]; decide

/-- The eight slabs of group `g` stacked: 256 × 512. -/
def stack8 (A : FVec F S128x32x512 .bf16) (g : Fin 16) : FVec F S256x512 .bf16 :=
  concatenate S256x512 0 (slabList A g) (slabList_concatenates A g)

/-- Group `g`'s 256 × 256 table: the high slab times the low slab over the positions. -/
def groupMat (A B : FVec F S128x32x512 .bf16) (g : Fin 16) : FVec F S256x256 .f32 :=
  matmul dot_S256x512_S256x512_S256x256_1_1_0_0_n_n none (stack8 A g) (stack8 B g) (constant S256x256 .f32 0x00000000#32)

/-- The `q`-th diagonal block of a group's table. -/
def diagBlock (M : FVec F S256x256 .f32) (q : Fin 8) : FVec F S32x32 .f32 :=
  extractStridedSlice S32x32 ![32 * q.val, 32 * q.val] M (slices_diag q)

/-- A diagonal block's 20 × 20 corner as 400 entries. -/
def mccPiece (blk : FVec F S32x32 .f32) : FVec F S1x400 .f32 :=
  shapeCast S1x400 (extractStridedSlice S20x20 ![0, 0] blk slices_S32x32_o0_0_S20x20) shapeCasts_S20x20_S1x400

/-- A diagonal block's 10 × 10 square at (20, 20) as 100 entries. -/
def trPiece (blk : FVec F S32x32 .f32) : FVec F S1x100 .f32 :=
  shapeCast S1x100 (extractStridedSlice S10x10 ![20, 20] blk slices_S32x32_o20_20_S10x10) shapeCasts_S10x10_S1x100

/-- Row `k`'s diagonal block. -/
def rowBlock (A B : FVec F S128x32x512 .bf16) (k : Fin 128) : FVec F S32x32 .f32 :=
  diagBlock (groupMat A B ⟨k.val / 8, by omega⟩) ⟨k.val % 8, by omega⟩

/-- The 128 rows' `mcc` pieces, as the list the concatenation takes. -/
def mccList (A B : FVec F S128x32x512 .bf16) : List ((s : Shape) × (s.Idx → F .f32)) :=
  List.ofFn fun k : Fin 128 => (⟨S1x400, mccPiece (rowBlock A B k)⟩ : (s : Shape) × (s.Idx → F .f32))

/-- The 128 rows' `tr` pieces, as the list the concatenation takes. -/
def trList (A B : FVec F S128x32x512 .bf16) : List ((s : Shape) × (s.Idx → F .f32)) :=
  List.ofFn fun k : Fin 128 => (⟨S1x100, trPiece (rowBlock A B k)⟩ : (s : Shape) × (s.Idx → F .f32))

theorem mccList_concatenates (A B : FVec F S128x32x512 .bf16) :
    Shape.Concatenates ((mccList A B).map (·.1)) S128x400 0 := by
  have e : (mccList A B).map (·.1) = List.replicate 128 S1x400 := by
    simp only [mccList, List.map_ofFn, Function.comp_def, List.ofFn_const]
  rw [e]; decide

theorem trList_concatenates (A B : FVec F S128x32x512 .bf16) :
    Shape.Concatenates ((trList A B).map (·.1)) S128x100 0 := by
  have e : (trList A B).map (·.1) = List.replicate 128 S1x100 := by
    simp only [trList, List.map_ofFn, Function.comp_def, List.ofFn_const]
  rw [e]; decide

/-- The block's result: the stacked `mcc` pieces and the stacked `tr` pieces, each scaled by the word of 1/512, and the
    mean column, joined along the second axis. -/
def cleanPayload (A B : FVec F S128x32x512 .bf16) (v10 : FVec F S128x512 .f32) (v12 : IVec S128x1 32) :
    FVec F S128x501 .f32 :=
  concatenate S128x501 1
    [⟨S128x400, mulf (concatenate S128x400 0 (mccList A B) (mccList_concatenates A B))
        (broadcast S128x400 (Scalar.ofBits .f32 0x3B000000#32))⟩,
     ⟨S128x100, mulf (concatenate S128x100 0 (trList A B) (trList_concatenates A B))
        (broadcast S128x100 (Scalar.ofBits .f32 0x3B000000#32))⟩,
     ⟨S128x1, meanCol v10 v12⟩]
    concatenates_S128x400_S128x100_S128x1_S128x501_d1

end Cert.Hist

end
-- ==== Proof.Bridge.lean ====
/-
  The body's stored value is the regular layout.

  The frame names what the body leaves in the output window's buffer as one stored piece over the whole buffer, whose
  value is the body's operations written out row by row: 16 groups, each its two stacked slabs, their product, and
  eight diagonal blocks cut into a 400-entry and a 100-entry piece; then the two stacks of 128 pieces, the scaling and
  the mean column.  The regular layout spells the same operations once for a row index, and the two terms are the same
  term after unfolding the definitions (the offsets `8g + q` and `32q` compute to the printed literals).
-/
import proofs.«408669_j69681549410810_3_alg».proof.Proof.Gen.KernelIdeal.Frame
import proofs.«408669_j69681549410810_3_alg».proof.Proof.Clean

noncomputable section

namespace Cert.Hist

open Cert.KernelIdeal Cert.KernelIdeal.Gen
open Idealize.ShloMosaic

variable {F : FTy → Type} [FloatOps F]

set_option maxRecDepth 1000000 in
set_option maxHeartbeats 4000000 in
/-- What the body leaves in the output buffer, from the four input blocks: the regular layout over the two digit
    one-hots of the token blocks, the amount block and the length column. -/
theorem out0_4_eq_clean (x0 x1 : Vec F S128x512 .i32) (x2 : Vec F S128x512 .f32) (x3 : Vec F S128x1 .i32) :
    out0_4 x0 x1 x2 x3
      = View.canon [⟨r0_2, cleanPayload
          (k0_pay7 (F := F) (k0_pay2 (View.ld x1 r0_0)) (k0_pay4 (View.ld x0 r0_0)))
          (k0_pay10 (F := F) (iota .tc S1x32x1 32 [1] iota_S1x32x1_d1_w32)
            (k0_pay8 (k0_pay1 (View.ld x0 r0_0)) (k0_pay5 (View.ld x0 r0_0))) (k0_pay9 (k0_pay2 (View.ld x1 r0_0))))
          (View.ld x2 r0_0) (k0_pay3 (View.ld x3 r0_1))⟩] := by
  unfold out0_4
  rfl

end Cert.Hist

end
-- ==== Proof.MatMul.lean ====
/-
  The matrix unit's product of two 256 × 512 slabs over their second axes.

  The body multiplies the high-digit slab `L` by the low-digit slab `R` with both contracted along the 512 positions
  ("it, jt → ij") into a zero accumulator.  At the exact extended reals the entry at (i, j) is the sum over the
  positions `t` of `L[i, t] · R[j, t]`.
-/
import proofs.«408669_j69681549410810_3_alg».proof.Proof.Gen.KernelIdeal
import Idealize.ShloMosaic.Lib.ValueIdx
import Idealize.ShloMosaic.PureOps.Ideal.Laws

noncomputable section

open scoped BigOperators

namespace Cert.Hist

open Cert.KernelIdeal Cert.KernelIdeal.Gen
open Idealize.ShloMosaic Idealize.ShloMosaic.ValueIdx

/-- The product into a zero accumulator, read at (i, j): the sum over the positions of the two slabs' entries. -/
theorem matmul_nt_apply (L R : FVec Ideal S256x512 .bf16) (i j : Fin 256) :
    matmul dot_S256x512_S256x512_S256x256_1_1_0_0_n_n none L R (constant S256x256 .f32 0x00000000#32) (ix2 i j)
      = ∑ t : Fin 512, L (ix2 i t) * R (ix2 j t) := by
  -- the product as the matrix unit's operation, then into a zero accumulator: the sum over the contraction index
  show FloatOps.matmul dot_S256x512_S256x512_S256x256_1_1_0_0_n_n none L R _ (ix2 i j) = _
  rw [Ideal.matmul_constant_zero_apply,
    ← Equiv.sum_comp (contrEquiv1 dot_S256x512_S256x512_S256x256_1_1_0_0_n_n 512 rfl rfl).symm]
  -- the contraction index is its one coordinate, a position `t`
  refine Finset.sum_congr rfl fun t _ => ?_
  have ct := contrEquiv1_symm_val dot_S256x512_S256x512_S256x256_1_1_0_0_n_n 512 rfl rfl t
  -- the left slab is read at (i, t): axis 0 is the result's row, axis 1 the position
  have hl : dot_S256x512_S256x512_S256x256_1_1_0_0_n_n.lhsIdx (ix2 i j)
      ((contrEquiv1 dot_S256x512_S256x512_S256x256_1_1_0_0_n_n 512 rfl rfl).symm t) = ix2 i t := by
    funext ax; apply Fin.ext
    match ax with
    | ⟨0, _⟩ => rfl
    | ⟨1, _⟩ => exact (DotDims.lhsIdx_val_of_single _ rfl _ _).trans ct
  -- the right slab is read at (j, t): axis 0 is the result's column, axis 1 the position
  have hr : dot_S256x512_S256x512_S256x256_1_1_0_0_n_n.rhsIdx (ix2 i j)
      ((contrEquiv1 dot_S256x512_S256x512_S256x256_1_1_0_0_n_n 512 rfl rfl).symm t) = ix2 j t := by
    funext ax; apply Fin.ext
    match ax with
    | ⟨0, _⟩ => rfl
    | ⟨1, _⟩ => exact (DotDims.rhsIdx_val_of_single _ rfl _ _).trans ct
  rw [hl, hr]

end Cert.Hist

end
-- ==== Proof.CleanRead.lean ====
/-
  The regular layout read at an index.

  A row's slab of a one-hot is the one-hot at that row.  The stack of a group's eight slabs reads, at (i, t), the
  one-hot at row `8g + i / 32`, digit `i % 32`.  The group's table at (i, j) is the sum over the positions of the two
  stacks' entries, so a row's diagonal block at (a, b) is the sum over the positions of (high one-hot at digit a) ·
  (low one-hot at digit b) of that row.  The 400-entry piece at `c` is the block at (c / 20, c % 20); the 100-entry piece
  at `c` is the block at (20 + c / 10, 20 + c % 10).  Column `c < 400` of the block's result is the row's 400-entry piece
  at `c` times the word of 1/512; column `400 + c` the 100-entry piece at `c` times that word; column 500 the mean column.
-/
import proofs.«408669_j69681549410810_3_alg».proof.Proof.Clean
import proofs.«408669_j69681549410810_3_alg».proof.Proof.MatMul
import Idealize.ShloMosaic.Lib.ValueIdx
import Idealize.ShloMosaic.Lib.ValueLayout
import Idealize.ShloMosaic.Lib.Pipeline.Value

noncomputable section

open scoped BigOperators

namespace Cert.Hist

open Cert.KernelIdeal Cert.KernelIdeal.Gen
open Idealize.ShloMosaic Idealize.ShloMosaic.ValueIdx

variable {F : FTy → Type} [FloatOps F]

/-- Row `k`'s slab at (digit, position) is the one-hot at (k, digit, position). -/
theorem rowSlab_apply (A : FVec F S128x32x512 .bf16) (k : Fin 128) (d : Fin 32) (t : Fin 512) :
    rowSlab A k (ix2 d t) = A (ix3 k d t) := by
  unfold rowSlab
  refine (shapeCast_1ab_ab_apply _ _ d t).trans ?_
  exact extractStridedSlice_apply _ _ _ _ (ix3 k d t) (fun a => by
    match a with
    | ⟨0, _⟩ => exact (Nat.add_zero _).symm
    | ⟨1, _⟩ => exact (Nat.zero_add _).symm
    | ⟨2, _⟩ => exact (Nat.zero_add _).symm)

/-- The stack of group `g` at (i, t): row `8g + i / 32` of the one-hot, digit `i % 32`. -/
theorem stack8_apply (A : FVec F S128x32x512 .bf16) (g : Fin 16) (i : Fin 256) (t : Fin 512) :
    stack8 A g (ix2 i t)
      = A (ix3 (⟨8 * g.val + i.val / 32, by omega⟩ : Fin 128) (⟨i.val % 32, Nat.mod_lt _ (by decide)⟩ : Fin 32) t) := by
  unfold stack8 slabList
  refine (concatenate_ofFn_apply (t := S256x512) (s₁ := S32x512) 0
    (fun q : Fin 8 => rowSlab A ⟨8 * g.val + q.val, by omega⟩) _ rfl 32 rfl (ix2 i t)
    (⟨i.val / 32, by omega⟩ : Fin 8) rfl (ix2 (⟨i.val % 32, Nat.mod_lt _ (by decide)⟩ : Fin 32) t) rfl
    (fun b hb => ?_)).trans ?_
  · match b with
    | ⟨0, _⟩ => exact absurd rfl hb
    | ⟨1, _⟩ => rfl
  · exact rowSlab_apply A _ _ t

/-- Group `g`'s table at (i, j): the sum over the positions of the high stack at i times the low stack at j. -/
theorem groupMat_apply (A B : FVec Ideal S128x32x512 .bf16) (g : Fin 16) (i j : Fin 256) :
    groupMat A B g (ix2 i j)
      = ∑ t : Fin 512,
          A (ix3 (⟨8 * g.val + i.val / 32, by omega⟩ : Fin 128) (⟨i.val % 32, Nat.mod_lt _ (by decide)⟩ : Fin 32) t)
          * B (ix3 (⟨8 * g.val + j.val / 32, by omega⟩ : Fin 128) (⟨j.val % 32, Nat.mod_lt _ (by decide)⟩ : Fin 32) t) := by
  unfold groupMat
  rw [matmul_nt_apply]
  exact Finset.sum_congr rfl fun t _ => by rw [stack8_apply, stack8_apply]

/-- The `q`-th diagonal block at (a, b) is the table at (32q + a, 32q + b). -/
theorem diagBlock_apply (M : FVec F S256x256 .f32) (q : Fin 8) (a b : Fin 32) :
    diagBlock M q (ix2 a b)
      = M (ix2 (⟨32 * q.val + a.val, by omega⟩ : Fin 256) (⟨32 * q.val + b.val, by omega⟩ : Fin 256)) := by
  unfold diagBlock
  exact extractStridedSlice_apply _ _ _ _ _ (fun ax => by
    match ax with
    | ⟨0, _⟩ => rfl
    | ⟨1, _⟩ => rfl)

/-- A row's diagonal block at (a, b): the sum over the positions of its high one-hot at a times its low one-hot at b. -/
theorem rowBlock_apply (A B : FVec Ideal S128x32x512 .bf16) (k : Fin 128) (a b : Fin 32) :
    rowBlock A B k (ix2 a b) = ∑ t : Fin 512, A (ix3 k a t) * B (ix3 k b t) := by
  unfold rowBlock
  rw [diagBlock_apply, groupMat_apply]
  have key : ∀ (X : FVec Ideal S128x32x512 .bf16) (k' : Fin 128) (a' a'' : Fin 32) (t : Fin 512),
      k'.val = k.val → a'.val = a''.val → X (ix3 k' a' t) = X (ix3 k a'' t) := by
    intro X k' a' a'' t hk ha
    obtain rfl := Fin.ext hk
    obtain rfl := Fin.ext ha
    rfl
  refine Finset.sum_congr rfl fun t _ => ?_
  have hk := k.isLt
  have ha := a.isLt
  have hb := b.isLt
  rw [key A _ _ a t (by show 8 * (k.val / 8) + (32 * (k.val % 8) + a.val) / 32 = k.val; omega)
        (by show (32 * (k.val % 8) + a.val) % 32 = a.val; omega),
      key B _ _ b t (by show 8 * (k.val / 8) + (32 * (k.val % 8) + b.val) / 32 = k.val; omega)
        (by show (32 * (k.val % 8) + b.val) % 32 = b.val; omega)]

/-- The 400-entry piece at `c` is the block at (c / 20, c % 20). -/
theorem mccPiece_apply (blk : FVec F S32x32 .f32) (c : Fin 400) :
    mccPiece blk (ix2 (0 : Fin 1) c)
      = blk (ix2 (⟨c.val / 20, by omega⟩ : Fin 32) (⟨c.val % 20, by omega⟩ : Fin 32)) := by
  unfold mccPiece
  refine (shapeCast_apply _ _ (ix2 (0 : Fin 1) c)
    (ix2 (⟨c.val / 20, by omega⟩ : Fin 20) (⟨c.val % 20, Nat.mod_lt _ (by decide)⟩ : Fin 20)) ?_).trans ?_
  · rw [Shape.rowMajor_val_two, Shape.rowMajor_val_two]
    show c.val / 20 * 20 + c.val % 20 = 0 * 400 + c.val
    omega
  · exact extractStridedSlice_apply _ _ _ _ _ (fun ax => by
      match ax with
      | ⟨0, _⟩ => exact (Nat.zero_add _).symm
      | ⟨1, _⟩ => exact (Nat.zero_add _).symm)

/-- The 100-entry piece at `c` is the block at (20 + c / 10, 20 + c % 10). -/
theorem trPiece_apply (blk : FVec F S32x32 .f32) (c : Fin 100) :
    trPiece blk (ix2 (0 : Fin 1) c)
      = blk (ix2 (⟨20 + c.val / 10, by omega⟩ : Fin 32) (⟨20 + c.val % 10, by omega⟩ : Fin 32)) := by
  unfold trPiece
  refine (shapeCast_apply _ _ (ix2 (0 : Fin 1) c)
    (ix2 (⟨c.val / 10, by omega⟩ : Fin 10) (⟨c.val % 10, Nat.mod_lt _ (by decide)⟩ : Fin 10)) ?_).trans ?_
  · rw [Shape.rowMajor_val_two, Shape.rowMajor_val_two]
    show c.val / 10 * 10 + c.val % 10 = 0 * 100 + c.val
    omega
  · exact extractStridedSlice_apply _ _ _ _ _ (fun ax => by
      match ax with
      | ⟨0, _⟩ => rfl
      | ⟨1, _⟩ => rfl)

/-- The stacked 400-entry pieces at (r, c): row r's piece at c. -/
theorem mccStack_apply (A B : FVec F S128x32x512 .bf16) (r : Fin 128) (c : Fin 400) :
    concatenate S128x400 0 (mccList A B) (mccList_concatenates A B) (ix2 r c)
      = mccPiece (rowBlock A B r) (ix2 (0 : Fin 1) c) := by
  unfold mccList
  refine concatenate_ofFn_unit_apply (t := S128x400) (s₁ := S1x400) 0
    (fun k : Fin 128 => mccPiece (rowBlock A B k)) _ rfl rfl (ix2 r c) r rfl (ix2 (0 : Fin 1) c) (fun b hb => ?_)
  match b with
  | ⟨0, _⟩ => exact absurd rfl hb
  | ⟨1, _⟩ => rfl

/-- The stacked 100-entry pieces at (r, c): row r's piece at c. -/
theorem trStack_apply (A B : FVec F S128x32x512 .bf16) (r : Fin 128) (c : Fin 100) :
    concatenate S128x100 0 (trList A B) (trList_concatenates A B) (ix2 r c)
      = trPiece (rowBlock A B r) (ix2 (0 : Fin 1) c) := by
  unfold trList
  refine concatenate_ofFn_unit_apply (t := S128x100) (s₁ := S1x100) 0
    (fun k : Fin 128 => trPiece (rowBlock A B k)) _ rfl rfl (ix2 r c) r rfl (ix2 (0 : Fin 1) c) (fun b hb => ?_)
  match b with
  | ⟨0, _⟩ => exact absurd rfl hb
  | ⟨1, _⟩ => rfl

/-- Column `c < 400` of the block's result. -/
theorem cleanPayload_mcc (A B : FVec Ideal S128x32x512 .bf16) (v10 : FVec Ideal S128x512 .f32) (v12 : IVec S128x1 32)
    (r : Fin 128) (c : Fin 400) :
    cleanPayload A B v10 v12 (ix2 r (⟨c.val, by omega⟩ : Fin 501))
      = mccPiece (rowBlock A B r) (ix2 (0 : Fin 1) c) * Ideal.ofBits .f32 0x3B000000#32 := by
  unfold cleanPayload
  refine (concatenate_apply_piece (t := S128x501) 1 _ _ (ix2 r (⟨c.val, by omega⟩ : Fin 501)) 0 (by show (0 : ℕ) < 3; omega)
    S128x400 _ rfl rfl 0 rfl (ix2 r c) (fun b hb => ?_) (Nat.zero_add _)).trans ?_
  · match b with
    | ⟨0, _⟩ => rfl
    | ⟨1, _⟩ => exact absurd rfl hb
  · show concatenate S128x400 0 (mccList A B) (mccList_concatenates A B) (ix2 r c) * Ideal.ofBits .f32 0x3B000000#32 = _
    rw [mccStack_apply]

/-- Column `400 + c` of the block's result. -/
theorem cleanPayload_tr (A B : FVec Ideal S128x32x512 .bf16) (v10 : FVec Ideal S128x512 .f32) (v12 : IVec S128x1 32)
    (r : Fin 128) (c : Fin 100) :
    cleanPayload A B v10 v12 (ix2 r (⟨400 + c.val, by omega⟩ : Fin 501))
      = trPiece (rowBlock A B r) (ix2 (0 : Fin 1) c) * Ideal.ofBits .f32 0x3B000000#32 := by
  unfold cleanPayload
  refine (concatenate_apply_piece (t := S128x501) 1 _ _ (ix2 r (⟨400 + c.val, by omega⟩ : Fin 501)) 1 (by show (1 : ℕ) < 3; omega)
    S128x100 _ rfl rfl 400 rfl (ix2 r c) (fun b hb => ?_) rfl).trans ?_
  · match b with
    | ⟨0, _⟩ => rfl
    | ⟨1, _⟩ => exact absurd rfl hb
  · show concatenate S128x100 0 (trList A B) (trList_concatenates A B) (ix2 r c) * Ideal.ofBits .f32 0x3B000000#32 = _
    rw [trStack_apply]

/-- Column 500 of the block's result: the mean column. -/
theorem cleanPayload_mean (A B : FVec Ideal S128x32x512 .bf16) (v10 : FVec Ideal S128x512 .f32) (v12 : IVec S128x1 32)
    (r : Fin 128) :
    cleanPayload A B v10 v12 (ix2 r (⟨500, by omega⟩ : Fin 501)) = meanCol v10 v12 (ix2 r (0 : Fin 1)) := by
  unfold cleanPayload
  refine concatenate_apply_piece (t := S128x501) 1 _ _ (ix2 r (⟨500, by omega⟩ : Fin 501)) 2 (by show (2 : ℕ) < 3; omega)
    S128x1 _ rfl rfl 500 rfl (ix2 r (0 : Fin 1)) (fun b hb => ?_) rfl
  match b with
  | ⟨0, _⟩ => rfl
  | ⟨1, _⟩ => exact absurd rfl hb

end Cert.Hist

end
-- ==== Proof.OneHot.lean ====
/-
  The two digit one-hots of a block of tokens, and their product.

  A block holds 128 rows of 512 positions.  The body clips the `mcc` token into 0..399 and writes it as
  `20·hi + lo` with both digits in 0..19, clips the `tr` token into 0..99 and writes it as `10·hi' + lo'` with both
  digits in 0..9.  The "high" one-hot has, at (row, d, position), a one when `d = hi` or `d = hi' + 20`; the "low"
  one-hot a one when `d = lo` or `d = lo' + 20`.  For `d, e < 20` the product of the high one-hot at `d` and the low
  one-hot at `e` is the indicator of `mcc = 20·d + e`; for `20 ≤ d, e < 30` it is the indicator of
  `tr = 10·(d-20) + (e-20)`.  This file proves those two facts for tokens already inside their ranges.
-/
import proofs.«408669_j69681549410810_3_alg».proof.Proof.Gen.KernelIdeal.Skeleton
import Idealize.ShloMosaic.Lib.ValueIdx
import Idealize.ShloMosaic.Lib.Pipeline.Value
import Idealize.ShloMosaic.Lib.StableHlo.Predicate

noncomputable section

namespace Cert.Hist

open Cert.KernelIdeal Cert.KernelIdeal.Gen
open Idealize.ShloMosaic Idealize.ShloMosaic.ValueIdx

/-- The high-digit one-hot of a block's tokens (`x0` the `mcc` block, `x1` the `tr` block), as the body computes it. -/
abbrev hiOH (x0 x1 : IVec S128x512 32) : FVec Ideal S128x32x512 .bf16 :=
  k0_pay7 (F := Ideal) (k0_pay2 (F := Ideal) x1) (k0_pay4 (F := Ideal) x0)

/-- The low-digit one-hot of a block's tokens, as the body computes it. -/
abbrev loOH (x0 x1 : IVec S128x512 32) : FVec Ideal S128x32x512 .bf16 :=
  k0_pay10 (F := Ideal) (iota .tc S1x32x1 32 [1] iota_S1x32x1_d1_w32)
    (k0_pay8 (k0_pay1 (F := Ideal) x0) (k0_pay5 (F := Ideal) x0)) (k0_pay9 (k0_pay2 (F := Ideal) x1))

/-! ## The road

First the words: a word already in `[0, hi]` passes the clip unchanged; the floor division as the body spells it (the
truncating quotient, corrected by one when the sign words of dividend and divisor differ and the remainder is not zero)
is, on a small non-negative word and a small positive divisor, the quotient of the values; the low digit `w − (w / n)·n`
is the value modulo `n`.  Then the layout: a [128, 512] vector viewed as [128, 1, 512] and broadcast along the middle
axis reads at (r, d, t) the vector at (r, t), and the broadcast digit counter reads `d`.  Both one-hots are one pattern
`hot p q` of two digit vectors `p`, `q`, whose value at (r, d, t) is the indicator of `p(r,t) = d ∨ q(r,t) + 20 = d`.
Last the arithmetic of the digits: `w = 20·(w / 20) + w % 20`, and a digit of `tr` moved up by 20 never meets a digit
below 20. -/

/-! ## Words -/

open Idealize.ShloMosaic.StableHlo.Predicate in
/-- A word equals the word of a small number exactly when its value is that number. -/
theorem OneHot.eq_ofNat_iff (a : BitVec 32) (d : Nat) (hd : d < 2 ^ 32) : a = BitVec.ofNat 32 d ↔ a.toNat = d := by
  constructor
  · intro h; rw [h, BitVec.toNat_ofNat]; exact Nat.mod_eq_of_lt hd
  · intro h; apply BitVec.eq_of_toNat_eq; rw [BitVec.toNat_ofNat, Nat.mod_eq_of_lt hd]; exact h

open Idealize.ShloMosaic.StableHlo.Predicate in
/-- The clip of a word into `[0, hi]`, written `min hi (max 0 w)` in signed order, is the word when it is already
    there. -/
theorem OneHot.clip_id (w hi : BitVec 32) (hhi : hi.toNat < 2 ^ 31) (hw : w.toNat ≤ hi.toNat) :
    IntOp.minsi hi (IntOp.maxsi 0#32 w) = w := by
  have hti : w.toInt = w.toNat := toInt_eq_toNat_of_lt (by omega)
  have hth : hi.toInt = hi.toNat := toInt_eq_toNat_of_lt hhi
  have h0 : (0#32 : BitVec 32).toInt = 0 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, hth, decide_eq_true_eq]; omega

open Idealize.ShloMosaic.StableHlo.Predicate in
/-- The sign word of a positive small word, `(w > 0) − (w < 0)`, is one. -/
theorem OneHot.sign_pos (w : BitVec 32) (h0 : 0 < w.toNat) (h : w.toNat < 2 ^ 31) :
    IntOp.subi ((IntOp.cmpi .sgt w 0#32).setWidth 32) ((IntOp.cmpi .slt w 0#32).setWidth 32) = 1#32 := by
  have hz : (0#32 : BitVec 32).toNat < 2 ^ 31 := by decide
  have hg : IntOp.cmpi .sgt w 0#32 = 1#1 := (sgt_iff_toNat h hz).mpr (by simpa using h0)
  have hl : IntOp.cmpi .slt w 0#32 = 0#1 :=
    eq_zero_of_ne_one (fun hc => by have := (slt_iff_toNat h hz).mp hc; simp at this)
  rw [hg, hl]; decide

/-- The floor division of a word by a word, as the body spells it: the truncating quotient, one less when the sign
    words of dividend and divisor differ and the remainder is not zero. -/
def OneHot.floorDivWord (w n : BitVec 32) : BitVec 32 :=
  Scalar.select
    (IntOp.andi
      (IntOp.cmpi .ne (IntOp.subi ((IntOp.cmpi .sgt w 0#32).setWidth 32) ((IntOp.cmpi .slt w 0#32).setWidth 32))
        (Scalar.subi (Scalar.extui (Scalar.cmpi .sgt n 0#32)) (Scalar.extui (Scalar.cmpi .slt n 0#32))))
      (IntOp.cmpi .ne (IntOp.remsi .vector w n) 0#32))
    (IntOp.subi (IntOp.divsi .vector w n) 1#32) (IntOp.divsi .vector w n)

/-- On a small non-negative word and a small positive divisor the floor division is the quotient of the values: the
    division meets no corner, both sign bits are clear so the signed quotient and remainder are the unsigned ones, and the
    correction never fires (a zero dividend has remainder zero; a positive one has the divisor's sign). -/
theorem OneHot.floorDivWord_toNat (w n : BitVec 32) (hw : w.toNat < 2 ^ 31) (hn0 : 0 < n.toNat) (hn : n.toNat < 2 ^ 31) :
    (OneHot.floorDivWord w n).toNat = w.toNat / n.toNat := by
  have hcorner : ¬ IntOp.SDivCorner w n := by
    intro hc
    rcases hc with hc | ⟨_, hc⟩
    · rw [hc] at hn0; exact absurd hn0 (by decide)
    · rw [hc] at hn; exact absurd hn (by decide)
  have hmw : w.msb = false := BitVec.msb_eq_false_iff_two_mul_lt.mpr (by omega)
  have hmn : n.msb = false := BitVec.msb_eq_false_iff_two_mul_lt.mpr (by omega)
  have hsn : Scalar.subi (Scalar.extui (Scalar.cmpi .sgt n 0#32)) (Scalar.extui (Scalar.cmpi .slt n 0#32)) = 1#32 :=
    OneHot.sign_pos n hn0 hn
  have hcond : IntOp.andi
      (IntOp.cmpi .ne (IntOp.subi ((IntOp.cmpi .sgt w 0#32).setWidth 32) ((IntOp.cmpi .slt w 0#32).setWidth 32))
        (Scalar.subi (Scalar.extui (Scalar.cmpi .sgt n 0#32)) (Scalar.extui (Scalar.cmpi .slt n 0#32))))
      (IntOp.cmpi .ne (IntOp.remsi .vector w n) 0#32) = 0#1 := by
    rw [hsn]
    by_cases hw0 : w.toNat = 0
    · have hrem : IntOp.remsi .vector w n = 0#32 := by
        apply BitVec.eq_of_toNat_eq
        simp only [IntOp.remsi, if_neg hcorner, BitVec.srem_eq, hmw, hmn, BitVec.umod_eq, BitVec.toNat_umod, hw0,
          BitVec.toNat_ofNat, Nat.zero_mod]
      rw [hrem]
      show _ &&& (IntOp.cmpi .ne 0#32 0#32) = 0#1
      rw [show IntOp.cmpi .ne 0#32 0#32 = 0#1 from by decide, BitVec.and_zero]
    · rw [OneHot.sign_pos w (by omega) hw]
      show (IntOp.cmpi .ne 1#32 1#32) &&& _ = 0#1
      rw [show IntOp.cmpi .ne 1#32 1#32 = 0#1 from by decide, BitVec.zero_and]
  unfold OneHot.floorDivWord
  rw [hcond, select_zero]
  simp only [IntOp.divsi, if_neg hcorner, BitVec.sdiv_eq, hmw, hmn, BitVec.udiv_eq, BitVec.toNat_udiv]

/-- The low digit `w − q·20` of a word whose quotient by 20 is `q` is its value modulo 20 … -/
theorem OneHot.low20_toNat (w q : BitVec 32) (hq : q.toNat = w.toNat / 20) :
    (IntOp.subi w (IntOp.muli q 20#32)).toNat = w.toNat % 20 := by
  have := w.isLt
  simp only [IntOp.subi, IntOp.muli, BitVec.toNat_sub, BitVec.toNat_mul, hq, BitVec.toNat_ofNat]
  omega

/-- … and `w − q·10`, with `q` the quotient by 10, its value modulo 10. -/
theorem OneHot.low10_toNat (w q : BitVec 32) (hq : q.toNat = w.toNat / 10) :
    (IntOp.subi w (IntOp.muli q 10#32)).toNat = w.toNat % 10 := by
  have := w.isLt
  simp only [IntOp.subi, IntOp.muli, BitVec.toNat_sub, BitVec.toNat_mul, hq, BitVec.toNat_ofNat]
  omega

/-- A one-bit `or` is set exactly when one of its operands is. -/
theorem OneHot.ori_eq_one_iff (a b : BitVec 1) : IntOp.ori a b = 1#1 ↔ a = 1#1 ∨ b = 1#1 := by
  rcases BitVec.eq_zero_or_eq_one a with rfl | rfl <;> rcases BitVec.eq_zero_or_eq_one b with rfl | rfl <;> decide

/-- A widened bit converted to a float is the real 1 when the bit is set and 0 otherwise. -/
theorem OneHot.sitofp_bit (b : BitVec 1) :
    (FloatOps.sitofp (F := Ideal) .f32 (b.setWidth 32) : EReal) = if b = 1#1 then (1 : EReal) else 0 := by
  rcases BitVec.eq_zero_or_eq_one b with rfl | rfl
  · show (((0#1 : BitVec 1).setWidth 32).toInt : ℝ) = (_ : EReal)
    rw [show ((0#1 : BitVec 1).setWidth 32).toInt = 0 from by decide, if_neg (by decide)]; simp
  · show (((1#1 : BitVec 1).setWidth 32).toInt : ℝ) = (_ : EReal)
    rw [show ((1#1 : BitVec 1).setWidth 32).toInt = 1 from by decide, if_pos rfl]; simp

/-- The product of two 0/1 indicators is the indicator of the conjunction. -/
theorem OneHot.ind_mul (P Q R : Prop) [Decidable P] [Decidable Q] [Decidable R] (h : R ↔ P ∧ Q) :
    (if P then (1 : EReal) else 0) * (if Q then (1 : EReal) else 0) = if R then (1 : EReal) else 0 := by
  by_cases hP : P <;> by_cases hQ : Q <;> simp [hP, hQ, h]

/-! ## Layout: the digit vectors and the digit counter read at (row, digit, position) -/

/-- A [128, 1, 512] vector broadcast along its middle axis reads, at (r, d, t), the vector at (r, 0, t). -/
theorem OneHot.bcastMid_apply {α : Type} (u : S128x1x512.Idx → α) (r : Fin 128) (d : Fin 32) (t : Fin 512) :
    broadcastTo S128x32x512 u broadcasts_S128x1x512_S128x32x512 (ix3 r d t) = u (ix3 r (0 : Fin 1) t) :=
  broadcastTo_apply u broadcasts_S128x1x512_S128x32x512 (ix3 r d t) (ix3 r (0 : Fin 1) t) fun a => match a with
    | ⟨0, _⟩ => by show r.val = if (128 : Nat) = 1 then 0 else r.val; rfl
    | ⟨1, _⟩ => by show (0 : Nat) = if (1 : Nat) = 1 then 0 else d.val; rfl
    | ⟨2, _⟩ => by show t.val = if (512 : Nat) = 1 then 0 else t.val; rfl

/-- A [128, 512] vector viewed as [128, 1, 512] reads, at (r, 0, t), the vector at (r, t): the two indices have the same
    row-major position. -/
theorem OneHot.castMid_apply {α : Type} (v : S128x512.Idx → α) (r : Fin 128) (t : Fin 512) :
    shapeCast S128x1x512 v shapeCasts_S128x512_S128x1x512 (ix3 r (0 : Fin 1) t) = v (ix2 r t) :=
  shapeCast_apply v shapeCasts_S128x512_S128x1x512 (ix3 r (0 : Fin 1) t) (ix2 r t) (by
    rw [Shape.rowMajor_val_two, Shape.rowMajor_val_three]
    show r.val * 512 + t.val = (r.val * 1 + 0) * 512 + t.val
    omega)

/-- The digit counter, a [1, 32, 1] vector counting along its middle axis, broadcast to [128, 32, 512] reads the digit. -/
theorem OneHot.iotaMid_apply (r : Fin 128) (d : Fin 32) (t : Fin 512) :
    broadcastTo S128x32x512 (iota .tc S1x32x1 32 [1] iota_S1x32x1_d1_w32) broadcasts_S1x32x1_S128x32x512 (ix3 r d t)
      = BitVec.ofNat 32 d.val := by
  refine (broadcastTo_apply _ broadcasts_S1x32x1_S128x32x512 (ix3 r d t) (ix3 (0 : Fin 1) d (0 : Fin 1)) fun a => match a with
    | ⟨0, _⟩ => by show (0 : Nat) = if (1 : Nat) = 1 then 0 else r.val; rfl
    | ⟨1, _⟩ => by show d.val = if (32 : Nat) = 1 then 0 else d.val; rfl
    | ⟨2, _⟩ => by show (0 : Nat) = if (1 : Nat) = 1 then 0 else t.val; rfl).trans ?_
  exact iota_single_apply .tc S1x32x1 32 1 iota_S1x32x1_d1_w32 (ix3 (0 : Fin 1) d (0 : Fin 1))

/-! ## The one-hot pattern -/

/-- The pattern both one-hots are instances of: from two digit vectors `p`, `q` over the block, the [128, 32, 512] float
    vector of the bits "`p` equals the digit counter, or `q + 20` does". -/
def OneHot.hot (p q : IVec S128x512 32) : FVec Ideal S128x32x512 .bf16 :=
  truncf .bf16
    (sitofp (F := Ideal) .f32
      (extui 32
        (ori
          (cmpi .eq
            (broadcastTo S128x32x512 (shapeCast S128x1x512 p shapeCasts_S128x512_S128x1x512) broadcasts_S128x1x512_S128x32x512)
            (broadcastTo S128x32x512 (iota .tc S1x32x1 32 [1] iota_S1x32x1_d1_w32) broadcasts_S1x32x1_S128x32x512))
          (cmpi .eq
            (broadcastTo S128x32x512
              (addi (shapeCast S128x1x512 q shapeCasts_S128x512_S128x1x512) (broadcast S128x1x512 20#32))
              broadcasts_S128x1x512_S128x32x512)
            (broadcastTo S128x32x512 (iota .tc S1x32x1 32 [1] iota_S1x32x1_d1_w32) broadcasts_S1x32x1_S128x32x512)))
        natLt_1_32))
    bitsLt_bf16_f32

/-- The high one-hot is the pattern on the two high digits … -/
theorem OneHot.hiOH_eq (x0 x1 : IVec S128x512 32) :
    hiOH x0 x1 = OneHot.hot (k0_pay4 (F := Ideal) x0) (k0_pay6 (k0_pay2 (F := Ideal) x1)) := rfl

/-- … and the low one-hot the pattern on the two low digits `w − (w / n)·n`. -/
theorem OneHot.loOH_eq (x0 x1 : IVec S128x512 32) :
    loOH x0 x1 = OneHot.hot (subi (k0_pay1 (F := Ideal) x0) (k0_pay5 (F := Ideal) x0))
      (subi (k0_pay2 (F := Ideal) x1) (muli (k0_pay6 (k0_pay2 (F := Ideal) x1)) (broadcast S128x512 10#32))) := rfl

open Idealize.ShloMosaic.StableHlo.Predicate in
/-- The pattern at (r, d, t): the indicator of `p(r,t) = d ∨ q(r,t) + 20 = d`, as words. -/
theorem OneHot.hot_apply (p q : IVec S128x512 32) (r : Fin 128) (d : Fin 32) (t : Fin 512) :
    OneHot.hot p q (ix3 r d t)
      = if p (ix2 r t) = BitVec.ofNat 32 d.val ∨ IntOp.addi (q (ix2 r t)) 20#32 = BitVec.ofNat 32 d.val
        then (1 : EReal) else 0 := by
  have e1 : broadcastTo S128x32x512 (shapeCast S128x1x512 p shapeCasts_S128x512_S128x1x512)
      broadcasts_S128x1x512_S128x32x512 (ix3 r d t) = p (ix2 r t) :=
    (OneHot.bcastMid_apply _ r d t).trans (OneHot.castMid_apply p r t)
  have e2 := OneHot.iotaMid_apply r d t
  have e3 : broadcastTo S128x32x512
      (addi (shapeCast S128x1x512 q shapeCasts_S128x512_S128x1x512) (broadcast S128x1x512 20#32))
      broadcasts_S128x1x512_S128x32x512 (ix3 r d t) = IntOp.addi (q (ix2 r t)) 20#32 :=
    (OneHot.bcastMid_apply _ r d t).trans (congrArg (fun z => IntOp.addi z 20#32) (OneHot.castMid_apply q r t))
  show FloatOps.sitofp (F := Ideal) .f32 ((IntOp.ori
      (IntOp.cmpi .eq
        (broadcastTo S128x32x512 (shapeCast S128x1x512 p shapeCasts_S128x512_S128x1x512)
          broadcasts_S128x1x512_S128x32x512 (ix3 r d t))
        (broadcastTo S128x32x512 (iota .tc S1x32x1 32 [1] iota_S1x32x1_d1_w32) broadcasts_S1x32x1_S128x32x512 (ix3 r d t)))
      (IntOp.cmpi .eq
        (broadcastTo S128x32x512
          (addi (shapeCast S128x1x512 q shapeCasts_S128x512_S128x1x512) (broadcast S128x1x512 20#32))
          broadcasts_S128x1x512_S128x32x512 (ix3 r d t))
        (broadcastTo S128x32x512 (iota .tc S1x32x1 32 [1] iota_S1x32x1_d1_w32) broadcasts_S1x32x1_S128x32x512
          (ix3 r d t)))).setWidth 32) = _
  rw [e1, e2, e3, OneHot.sitofp_bit]
  exact if_congr ((OneHot.ori_eq_one_iff _ _).trans (or_congr cmpi_eq_iff cmpi_eq_iff)) rfl rfl

/-! ## The digits of tokens in range -/

/-- An `mcc` token below 400 passes its clip unchanged … -/
theorem OneHot.pay1_id (x0 : IVec S128x512 32) (i : S128x512.Idx) (h : (x0 i).toNat < 400) :
    k0_pay1 (F := Ideal) x0 i = x0 i := by
  have h399 : (399#32 : BitVec 32).toNat = 399 := by decide
  exact OneHot.clip_id (x0 i) 399#32 (by decide) (by omega)

/-- … and a `tr` token below 100 its own. -/
theorem OneHot.pay2_id (x1 : IVec S128x512 32) (i : S128x512.Idx) (h : (x1 i).toNat < 100) :
    k0_pay2 (F := Ideal) x1 i = x1 i := by
  have h99 : (99#32 : BitVec 32).toNat = 99 := by decide
  exact OneHot.clip_id (x1 i) 99#32 (by decide) (by omega)

/-- The high digit of an `mcc` token in range is its value divided by 20. -/
theorem OneHot.mccHi_toNat (x0 : IVec S128x512 32) (i : S128x512.Idx) (h : (x0 i).toNat < 400) :
    (k0_pay4 (F := Ideal) x0 i).toNat = (x0 i).toNat / 20 := by
  have e : k0_pay4 (F := Ideal) x0 i = OneHot.floorDivWord (k0_pay1 (F := Ideal) x0 i) 20#32 := rfl
  rw [e, OneHot.pay1_id x0 i h, OneHot.floorDivWord_toNat _ _ (by omega) (by decide) (by decide)]
  rfl

/-- The high digit of a `tr` token in range is its value divided by 10. -/
theorem OneHot.trHi_toNat (x1 : IVec S128x512 32) (i : S128x512.Idx) (h : (x1 i).toNat < 100) :
    (k0_pay6 (k0_pay2 (F := Ideal) x1) i).toNat = (x1 i).toNat / 10 := by
  have e : k0_pay6 (k0_pay2 (F := Ideal) x1) i = OneHot.floorDivWord (k0_pay2 (F := Ideal) x1 i) 10#32 := rfl
  rw [e, OneHot.pay2_id x1 i h, OneHot.floorDivWord_toNat _ _ (by omega) (by decide) (by decide)]
  rfl

/-- The low digit of an `mcc` token in range is its value modulo 20. -/
theorem OneHot.mccLo_toNat (x0 : IVec S128x512 32) (i : S128x512.Idx) (h : (x0 i).toNat < 400) :
    ((subi (k0_pay1 (F := Ideal) x0) (k0_pay5 (F := Ideal) x0)) i).toNat = (x0 i).toNat % 20 := by
  have e : (subi (k0_pay1 (F := Ideal) x0) (k0_pay5 (F := Ideal) x0)) i
      = IntOp.subi (k0_pay1 (F := Ideal) x0 i) (IntOp.muli (k0_pay4 (F := Ideal) x0 i) 20#32) := rfl
  rw [e, OneHot.pay1_id x0 i h]
  exact OneHot.low20_toNat _ _ (OneHot.mccHi_toNat x0 i h)

/-- The low digit of a `tr` token in range is its value modulo 10. -/
theorem OneHot.trLo_toNat (x1 : IVec S128x512 32) (i : S128x512.Idx) (h : (x1 i).toNat < 100) :
    ((subi (k0_pay2 (F := Ideal) x1) (muli (k0_pay6 (k0_pay2 (F := Ideal) x1)) (broadcast S128x512 10#32))) i).toNat
      = (x1 i).toNat % 10 := by
  have e : (subi (k0_pay2 (F := Ideal) x1) (muli (k0_pay6 (k0_pay2 (F := Ideal) x1)) (broadcast S128x512 10#32))) i
      = IntOp.subi (k0_pay2 (F := Ideal) x1 i) (IntOp.muli (k0_pay6 (k0_pay2 (F := Ideal) x1) i) 10#32) := rfl
  rw [e, OneHot.pay2_id x1 i h]
  exact OneHot.low10_toNat _ _ (OneHot.trHi_toNat x1 i h)

/-- A digit word `a` moved up by 20 is the digit `d` exactly when its value plus 20 is. -/
theorem OneHot.add20_eq_iff (a : BitVec 32) (d : Nat) (ha : a.toNat < 400) (hd : d < 32) :
    IntOp.addi a 20#32 = BitVec.ofNat 32 d ↔ a.toNat + 20 = d := by
  rw [OneHot.eq_ofNat_iff _ _ (by omega)]
  simp only [IntOp.addi, BitVec.toNat_add, BitVec.toNat_ofNat]
  omega

/-- The high one-hot at (r, d, t), for tokens in range: the indicator of `mcc / 20 = d ∨ tr / 10 + 20 = d`. -/
theorem OneHot.hi_apply (x0 x1 : IVec S128x512 32) (h0 : ∀ i, (x0 i).toNat < 400) (h1 : ∀ i, (x1 i).toNat < 100)
    (r : Fin 128) (d : Fin 32) (t : Fin 512) :
    hiOH x0 x1 (ix3 r d t)
      = if (x0 (ix2 r t)).toNat / 20 = d.val ∨ (x1 (ix2 r t)).toNat / 10 + 20 = d.val then (1 : EReal) else 0 := by
  have hd := d.isLt
  have a1 := OneHot.mccHi_toNat x0 (ix2 r t) (h0 _)
  have a2 := OneHot.trHi_toNat x1 (ix2 r t) (h1 _)
  have b1 := h1 (ix2 r t)
  rw [OneHot.hiOH_eq, OneHot.hot_apply]
  refine if_congr (or_congr ?_ ?_) rfl rfl
  · rw [OneHot.eq_ofNat_iff _ _ (by omega), a1]
  · rw [OneHot.add20_eq_iff _ _ (by omega) hd, a2]

/-- The low one-hot at (r, e, t), for tokens in range: the indicator of `mcc % 20 = e ∨ tr % 10 + 20 = e`. -/
theorem OneHot.lo_apply (x0 x1 : IVec S128x512 32) (h0 : ∀ i, (x0 i).toNat < 400) (h1 : ∀ i, (x1 i).toNat < 100)
    (r : Fin 128) (e : Fin 32) (t : Fin 512) :
    loOH x0 x1 (ix3 r e t)
      = if (x0 (ix2 r t)).toNat % 20 = e.val ∨ (x1 (ix2 r t)).toNat % 10 + 20 = e.val then (1 : EReal) else 0 := by
  have he := e.isLt
  have a1 := OneHot.mccLo_toNat x0 (ix2 r t) (h0 _)
  have a2 := OneHot.trLo_toNat x1 (ix2 r t) (h1 _)
  rw [OneHot.loOH_eq, OneHot.hot_apply]
  refine if_congr (or_congr ?_ ?_) rfl rfl
  · rw [OneHot.eq_ofNat_iff _ _ (by omega), a1]
  · rw [OneHot.add20_eq_iff _ _ (by omega) he, a2]

/-! ## The two products -/

/-- For digits below 20 the product of the two one-hots is the indicator of the `mcc` token being `20·d + e`. -/
theorem oh_prod_mcc (x0 x1 : IVec S128x512 32) (h0 : ∀ i, (x0 i).toNat < 400) (h1 : ∀ i, (x1 i).toNat < 100)
    (r : Fin 128) (t : Fin 512) (d e : Fin 32) (hd : d.val < 20) (he : e.val < 20) :
    hiOH x0 x1 (ix3 r d t) * loOH x0 x1 (ix3 r e t)
      = if (x0 (ix2 r t)).toNat = 20 * d.val + e.val then (1 : EReal) else 0 := by
  -- both factors are indicators; with d, e below 20 the `tr` digits (moved up by 20) cannot match, and
  -- mcc / 20 = d ∧ mcc % 20 = e says mcc = 20·d + e
  have b0 := h0 (ix2 r t)
  have b1 := h1 (ix2 r t)
  rw [OneHot.hi_apply x0 x1 h0 h1, OneHot.lo_apply x0 x1 h0 h1]
  refine OneHot.ind_mul _ _ _ ?_
  omega

/-- For digits in 20..29 the product of the two one-hots is the indicator of the `tr` token being `10·(d-20) + (e-20)`. -/
theorem oh_prod_tr (x0 x1 : IVec S128x512 32) (h0 : ∀ i, (x0 i).toNat < 400) (h1 : ∀ i, (x1 i).toNat < 100)
    (r : Fin 128) (t : Fin 512) (d e : Fin 32) (hd : 20 ≤ d.val ∧ d.val < 30) (he : 20 ≤ e.val ∧ e.val < 30) :
    hiOH x0 x1 (ix3 r d t) * loOH x0 x1 (ix3 r e t)
      = if (x1 (ix2 r t)).toNat = 10 * (d.val - 20) + (e.val - 20) then (1 : EReal) else 0 := by
  -- with d, e in 20..29 the `mcc` digits (below 20) cannot match, and tr / 10 = d − 20 ∧ tr % 10 = e − 20 says
  -- tr = 10·(d − 20) + (e − 20)
  have b0 := h0 (ix2 r t)
  have b1 := h1 (ix2 r t)
  rw [OneHot.hi_apply x0 x1 h0 h1, OneHot.lo_apply x0 x1 h0 h1]
  refine OneHot.ind_mul _ _ _ ?_
  omega

end Cert.Hist

end
-- ==== Proof.Spec.lean ====
/-
  What both programs compute, as one function of the four argument arrays.

  Row `b` of the result has 501 entries.  Entries 0..399 are the histogram of the row's 512 `mcc` tokens
  divided by 512: entry `c` is (the number of positions `t` with `mcc[b,t] = c`) · 1/512.  Entries 400..499 are
  the same for the `tr` tokens over 100 bins.  Entry 500 is the masked mean of the log-scaled amount: the sum over
  the positions `t < seq[b]` (signed compare of 32-bit words) of `sign(a) · log1p|a|`, divided by `seq[b]`.

  The counts are written as sums of 0/1 indicators over the 512 positions, which is the form both programs reach:
  the kernel's product of two digit one-hots summed by the matrix unit, and the reference's scatter of ones.
-/
import Idealize.ShloMosaic.PureOps.Ideal
import Idealize.ShloMosaic.Lib.ValueIdx

noncomputable section

open scoped BigOperators

namespace Cert.Hist

open Idealize.ShloMosaic Idealize.ShloMosaic.ValueIdx

/-- The token arrays and the amount array: 16384 rows of 512 positions. -/
abbrev SIn : Shape := ⟨2, ![16384, 512]⟩
/-- The sequence lengths: one word per row. -/
abbrev SLen : Shape := ⟨1, ![16384]⟩
/-- The result: 16384 rows of 400 + 100 + 1 entries. -/
abbrev SOut : Shape := ⟨2, ![16384, 501]⟩

/-- 1/512 as an extended real: the histogram's normalisation. -/
def invT : EReal := ((1 / 512 : ℝ) : EReal)

/-- How many of row `b`'s 512 tokens are the bin `c`, as a sum of indicators. -/
def tokCount (tok : SIn.Idx → BitVec 32) (b : Fin 16384) (c : ℕ) : EReal :=
  ∑ t : Fin 512, if (tok (ix2 b t)).toNat = c then (1 : EReal) else 0

/-- The log scaling of one amount: `sign(a) · log1p|a|`, with `|a| = max a (-a)`. -/
def logVar (a : EReal) : EReal := Ideal.sign a * Ideal.log1p (max a (-a))

/-- Position `t` of a row counts towards the mean when `t < len`, both read as signed 32-bit words. -/
def live (len : BitVec 32) (t : Fin 512) : Prop := IntOp.cmpi .slt (BitVec.ofNat 32 t.val) len = 1#1

instance (len : BitVec 32) (t : Fin 512) : Decidable (live len t) := by unfold live; infer_instance

/-- The sum of the log-scaled amounts over a row's live positions. -/
def liveSum (amt : SIn.Idx → EReal) (len : BitVec 32) (b : Fin 16384) : EReal :=
  ∑ t : Fin 512, if live len t then logVar (amt (ix2 b t)) else 0

/-- The result array. -/
def G (mcc tr : SIn.Idx → BitVec 32) (amt : SIn.Idx → EReal) (seq : SLen.Idx → BitVec 32) : SOut.Idx → EReal :=
  fun i =>
    if (i 1).val < 400 then tokCount mcc (i 0) (i 1).val * invT
    else if (i 1).val < 500 then tokCount tr (i 0) ((i 1).val - 400) * invT
    else Ideal.div (liveSum amt (seq (ix1 (i 0))) (i 0)) (((seq (ix1 (i 0))).toInt : ℝ) : EReal)

end Cert.Hist

end
-- ==== Proof.Mean.lean ====
/-
  The last column of a block: the masked mean of the log-scaled amounts.

  From a block of amounts `a` (128 rows of 512 positions) and the block's column of sequence lengths `n`, the body
  computes `sign(a) · log1p|a|` position by position — the sign written as "where |a| > 0, minus one if a < 0 and one
  otherwise, else a itself" —, keeps it where the position is below the row's length (signed compare of words) and puts
  zero elsewhere, sums each row, and divides the row's sum by its length converted to a float.  At the exact extended
  reals this is the row's sum of `logVar` over its live positions divided by the length.
-/
import proofs.«408669_j69681549410810_3_alg».proof.Proof.MeanDef
import proofs.«408669_j69681549410810_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hist

open Cert.KernelIdeal Cert.KernelIdeal.Gen
open Idealize.ShloMosaic Idealize.ShloMosaic.ValueIdx

/-- The lane number along the second axis, at (r, t), is the word of `t`. -/
private theorem lane_at (h : S128x512.Iotas .tc 32 [1]) (r : Fin 128) (t : Fin 512) :
    iota .tc S128x512 32 [1] h (ix2 r t) = BitVec.ofNat 32 t.val := by
  show BitVec.ofNat 32 (0 * 512 + t.val) = _
  rw [Nat.zero_mul, Nat.zero_add]

/-- The column of lengths spread over the positions reads, at (r, t), row `r`'s length. -/
private theorem lens_at (v12 : IVec S128x1 32) (h : S128x1.Broadcasts S128x512) (r : Fin 128) (t : Fin 512) :
    broadcastTo S128x512 v12 h (ix2 r t) = v12 (ix2 r (0 : Fin 1)) := by
  refine broadcastTo_apply v12 h (ix2 r t) (ix2 r (0 : Fin 1)) fun ax => ?_
  match ax with
  | ⟨0, _⟩ => rfl
  | ⟨1, _⟩ => rfl

/-- A vector of 128 entries laid as a column reads, at (r, 0), its entry `r`: the two have the same row-major place. -/
private theorem col_at {α : Type} (x : S128.Idx → α) (h : S128.ShapeCasts S128x1) (r : Fin 128) :
    shapeCast S128x1 x h (ix2 r (0 : Fin 1)) = x (ix1 r) :=
  shapeCast_apply x h _ _ (by
    rw [Shape.rowMajor_val_one, Shape.rowMajor_val_two]
    show r.val = r.val * 1 + 0
    omega)

/-- The sum along the second axis, at row `r`, is the sum over the 512 positions of the row's entries. -/
private theorem rowSum_at (src : FVec Ideal S128x512 .f32) (h : S128x512.Reduces [1] S128) (hφ : FKind.Formats .f32)
    (hacc : (0x00000000#32 : BitVec 32) = 0x00000000#32) (r : Fin 128) :
    multiReduction .add [1] S128 src 0x00000000#32 h hφ hacc (ix1 r) = ∑ t : Fin 512, src (ix2 r t) := by
  refine (Ideal.multiReduction_add_single src 0x00000000#32 h hφ hacc (ix1 r)).trans ?_
  show ∑ t : Fin 512, src (h.lift (ix1 r) t) = _
  refine Finset.sum_congr rfl fun t _ => congrArg src ?_
  funext ax; apply Fin.ext
  match ax with
  | ⟨0, _⟩ => rfl
  | ⟨1, _⟩ => rfl

/-- One amount's log scaling as the body writes it: the selected sign times `log1p` of the absolute value. -/
private theorem logVar_at (a : Ideal .f32) :
    Scalar.select (FloatOps.cmpf .ogt (FloatOps.absf a) (Scalar.ofBits .f32 0x00000000#32))
        (Scalar.select (FloatOps.cmpf .olt a (Scalar.ofBits .f32 0x00000000#32)) (Scalar.ofBits .f32 0xBF800000#32)
          (Scalar.ofBits .f32 0x3F800000#32)) a * FloatOps.log1p (FloatOps.absf a)
      = logVar a := by
  rw [Ideal.jnp_sign_eq_sign_f32, Ideal.log1p_def, Ideal.absf_def]
  rfl

/-- Row `r` of the last column is the row's live sum of `logVar` divided by the row's length. -/
theorem meanCol_apply (v10 : FVec Ideal S128x512 .f32) (v12 : IVec S128x1 32) (r : Fin 128) :
    meanCol (F := Ideal) v10 v12 (ix2 r (0 : Fin 1))
      = Ideal.div (∑ t : Fin 512, if live (v12 (ix2 r (0 : Fin 1))) t then logVar (v10 (ix2 r t)) else 0)
          (((v12 (ix2 r (0 : Fin 1))).toInt : ℝ) : EReal) := by
  -- the quotient of the column entry by the length as a float
  show Ideal.div (shapeCast S128x1 _ shapeCasts_S128_S128x1 (ix2 r (0 : Fin 1))) (((v12 (ix2 r (0 : Fin 1))).toInt : ℝ) : EReal) = _
  refine congrArg (fun x => Ideal.div x _) ?_
  -- the column entry is the row's sum over the positions
  refine (col_at _ _ r).trans ((rowSum_at _ _ _ _ r).trans ?_)
  refine Finset.sum_congr rfl fun t _ => ?_
  -- one position: the mask is "t below the row's length", the kept value the log scaling, the other zero
  show Scalar.select (IntOp.cmpi .slt (iota .tc S128x512 32 [1] iota_S128x512_d1_w32 (ix2 r t))
      (broadcastTo S128x512 v12 broadcasts_S128x1_S128x512 (ix2 r t))) _ (Ideal.ofBits .f32 0x00000000#32) = _
  rw [lane_at, lens_at, Ideal.ofBits_zero_f32]
  unfold Scalar.select live
  refine if_congr Iff.rfl ?_ rfl
  exact logVar_at (v10 (ix2 r t))

end Cert.Hist

end
-- ==== Proof.Consts.lean ====
/-
  The float words the two programs spell, as the extended reals they denote.

  `0x3B000000` is 2⁻⁹ = 1/512, the kernel's normalisation of a histogram; `0x44000000` is 2⁹ = 512, the reference's
  divisor; `0x3F800000` is 1, the update the reference scatters; `0x00000000` is 0.
-/
import Idealize.ShloMosaic.PureOps.Ideal

noncomputable section

namespace Cert.Hist

open Idealize.ShloMosaic

/-- The word of 1/512. -/
theorem ofBits_inv512 : Ideal.ofBits .f32 0x3B000000#32 = ((1 / 512 : ℝ) : EReal) := by
  simp [Ideal.ofBits, Ideal.ieee, -EReal.coe_mul]; norm_num

/-- The word of 512. -/
theorem ofBits_512 : Ideal.ofBits .f32 0x44000000#32 = ((512 : ℝ) : EReal) := by
  simp [Ideal.ofBits, Ideal.ieee, -EReal.coe_mul]; norm_num

/-- The word of 1. -/
theorem ofBits_one : Ideal.ofBits .f32 0x3F800000#32 = 1 := by
  simp [Ideal.ofBits, Ideal.ieee, -EReal.coe_mul]; norm_num

/-- The word of 0. -/
theorem ofBits_zero : Ideal.ofBits .f32 0x00000000#32 = 0 := by
  simp [Ideal.ofBits, Ideal.ieee]

end Cert.Hist

end
-- ==== Proof.BlockValue.lean ====
/-
  A block's result, entry by entry.

  For a block whose tokens are inside their ranges, row `r` of the block's result holds: at column `c < 400` the number
  of the row's positions whose `mcc` token is `c`, times 1/512 — the piece's entry is the diagonal block at
  (c / 20, c % 20), a sum over the positions of the product of the two digit one-hots, and that product is the indicator
  of the token being `20·(c / 20) + c % 20 = c`; at column `400 + c` the same for the `tr` tokens with digits base 10
  moved up by 20; at column 500 the row's live sum of the log-scaled amounts over its length.
-/
import proofs.«408669_j69681549410810_3_alg».proof.Proof.CleanRead
import proofs.«408669_j69681549410810_3_alg».proof.Proof.OneHot
import proofs.«408669_j69681549410810_3_alg».proof.Proof.Mean
import proofs.«408669_j69681549410810_3_alg».proof.Proof.Consts
import proofs.«408669_j69681549410810_3_alg».proof.Proof.Spec

noncomputable section

open scoped BigOperators

namespace Cert.Hist

open Cert.KernelIdeal Cert.KernelIdeal.Gen
open Idealize.ShloMosaic Idealize.ShloMosaic.ValueIdx

/-- Column `c < 400`: the count of the row's `mcc` tokens equal to `c`, over 512. -/
theorem block_mcc (x0 x1 : IVec S128x512 32) (h0 : ∀ i, (x0 i).toNat < 400) (h1 : ∀ i, (x1 i).toNat < 100)
    (v10 : FVec Ideal S128x512 .f32) (v12 : IVec S128x1 32) (r : Fin 128) (c : Fin 400) :
    cleanPayload (hiOH x0 x1) (loOH x0 x1) v10 v12 (ix2 r (⟨c.val, by omega⟩ : Fin 501))
      = (∑ t : Fin 512, if (x0 (ix2 r t)).toNat = c.val then (1 : EReal) else 0) * invT := by
  rw [cleanPayload_mcc, mccPiece_apply, rowBlock_apply, ofBits_inv512]
  unfold invT
  congr 1
  refine Finset.sum_congr rfl fun t _ => ?_
  rw [oh_prod_mcc x0 x1 h0 h1 r t _ _ (by show c.val / 20 < 20; omega) (by show c.val % 20 < 20; omega)]
  have e : 20 * (c.val / 20) + c.val % 20 = c.val := Nat.div_add_mod c.val 20
  show (if (x0 (ix2 r t)).toNat = 20 * (c.val / 20) + c.val % 20 then (1 : EReal) else 0) = _
  rw [e]

/-- Column `400 + c`: the count of the row's `tr` tokens equal to `c`, over 512. -/
theorem block_tr (x0 x1 : IVec S128x512 32) (h0 : ∀ i, (x0 i).toNat < 400) (h1 : ∀ i, (x1 i).toNat < 100)
    (v10 : FVec Ideal S128x512 .f32) (v12 : IVec S128x1 32) (r : Fin 128) (c : Fin 100) :
    cleanPayload (hiOH x0 x1) (loOH x0 x1) v10 v12 (ix2 r (⟨400 + c.val, by omega⟩ : Fin 501))
      = (∑ t : Fin 512, if (x1 (ix2 r t)).toNat = c.val then (1 : EReal) else 0) * invT := by
  rw [cleanPayload_tr, trPiece_apply, rowBlock_apply, ofBits_inv512]
  unfold invT
  congr 1
  refine Finset.sum_congr rfl fun t _ => ?_
  rw [oh_prod_tr x0 x1 h0 h1 r t _ _ (by show 20 ≤ 20 + c.val / 10 ∧ 20 + c.val / 10 < 30; omega)
    (by show 20 ≤ 20 + c.val % 10 ∧ 20 + c.val % 10 < 30; omega)]
  have e : 10 * (20 + c.val / 10 - 20) + (20 + c.val % 10 - 20) = c.val := by
    have := Nat.div_add_mod c.val 10; omega
  show (if (x1 (ix2 r t)).toNat = 10 * (20 + c.val / 10 - 20) + (20 + c.val % 10 - 20) then (1 : EReal) else 0) = _
  rw [e]

/-- Column 500: the row's live sum of the log-scaled amounts over its length. -/
theorem block_mean (x0 x1 : IVec S128x512 32) (v10 : FVec Ideal S128x512 .f32) (v12 : IVec S128x1 32) (r : Fin 128) :
    cleanPayload (hiOH x0 x1) (loOH x0 x1) v10 v12 (ix2 r (⟨500, by omega⟩ : Fin 501))
      = Ideal.div (∑ t : Fin 512, if live (v12 (ix2 r (0 : Fin 1))) t then logVar (v10 (ix2 r t)) else 0)
          (((v12 (ix2 r (0 : Fin 1))).toInt : ℝ) : EReal) := by
  rw [cleanPayload_mean, meanCol_apply]

end Cert.Hist

end
-- ==== Proof.KernelValue.lean ====
/-
  The kernel's result array is the specification `G` of its argument arrays.

  The grid has 128 points; point `t` stages rows `128t … 128t + 127` of each token array and of the amount array, the
  same rows of the length column (the lengths reshaped to one column before the region), and writes back rows
  `128t … 128t + 127` of the result, all 501 columns.  What it writes back is the regular layout over the staged blocks
  (the body's stored value), which row by row is `G`'s row `128t + r`: the histograms count the same tokens and the mean
  sums the same amounts against the same length.  The 128 blocks cover the result array, so after the run the array is `G`.
-/
import proofs.«408669_j69681549410810_3_alg».proof.Proof.Gen.KernelIdeal.Value
import proofs.«408669_j69681549410810_3_alg».proof.Proof.Bridge
import proofs.«408669_j69681549410810_3_alg».proof.Proof.BlockValue
import Idealize.ShloMosaic.Lib.Pipeline.Value
import Idealize.ShloMosaic.Lib.ValueLayout
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.Hist.KV

open Cert.KernelIdeal Cert.KernelIdeal.Gen Cert.KernelIdeal.Value Cert.Hist
open Idealize.ShloMosaic.ValueIdx

/-! ## One block against the arrays, over plain variables -/

/-- The length column's self-cast is the column. -/
theorem pay3_eq (x3 : IVec S128x1 32) : k0_pay3 (F := Ideal) x3 = x3 := by
  unfold k0_pay3
  exact shapeCast_self _ _

/-- If a block's four inputs are rows `128T + r` of four arrays whose tokens are in range, the regular layout over the
    block, read at a block index, is `G` of the arrays at the array index `128T` rows further down. -/
theorem payload_eq_G (x0 x1 : IVec S128x512 32) (x2 : FVec Ideal S128x512 .f32) (x3 : IVec S128x1 32)
    (M0 M1 : SIn.Idx → BitVec 32) (M2 : SIn.Idx → EReal) (M3 : SLen.Idx → BitVec 32)
    (h0 : ∀ i, (M0 i).toNat < 400) (h1 : ∀ i, (M1 i).toNat < 100)
    (T : ℕ) (hT : T < 128)
    (e0 : ∀ (r : Fin 128) (p : Fin 512), x0 (ix2 r p) = M0 (ix2 (⟨128 * T + r.val, by omega⟩ : Fin 16384) p))
    (e1 : ∀ (r : Fin 128) (p : Fin 512), x1 (ix2 r p) = M1 (ix2 (⟨128 * T + r.val, by omega⟩ : Fin 16384) p))
    (e2 : ∀ (r : Fin 128) (p : Fin 512), x2 (ix2 r p) = M2 (ix2 (⟨128 * T + r.val, by omega⟩ : Fin 16384) p))
    (e3 : ∀ r : Fin 128, x3 (ix2 r (0 : Fin 1)) = M3 (ix1 (⟨128 * T + r.val, by omega⟩ : Fin 16384)))
    (j : S128x501.Idx) (i : SOut.Idx) (hi0 : (i 0).val = 128 * T + (j 0).val) (hi1 : (i 1).val = (j 1).val) :
    cleanPayload (hiOH x0 x1) (loOH x0 x1) x2 (k0_pay3 (F := Ideal) x3) j = G M0 M1 M2 M3 i := by
  rw [pay3_eq]
  have hx0 : ∀ y, (x0 y).toNat < 400 := fun y => by
    obtain ⟨r, p, rfl⟩ : ∃ (r : Fin 128) (p : Fin 512), y = ix2 r p := ⟨y 0, y 1, eq_ix2 y⟩
    rw [e0]; exact h0 _
  have hx1 : ∀ y, (x1 y).toNat < 100 := fun y => by
    obtain ⟨r, p, rfl⟩ : ∃ (r : Fin 128) (p : Fin 512), y = ix2 r p := ⟨y 0, y 1, eq_ix2 y⟩
    rw [e1]; exact h1 _
  obtain ⟨r, q, rfl⟩ : ∃ (r : Fin 128) (q : Fin 501), j = ix2 r q := ⟨j 0, j 1, eq_ix2 j⟩
  have hr : (i 0) = (⟨128 * T + r.val, by omega⟩ : Fin 16384) := Fin.ext hi0
  have hq : (i 1).val = q.val := hi1
  unfold G
  by_cases c400 : q.val < 400
  · rw [if_pos (by rw [hq]; exact c400)]
    have := block_mcc x0 x1 hx0 hx1 x2 x3 r ⟨q.val, c400⟩
    rw [show (ix2 r q : S128x501.Idx) = ix2 r (⟨(⟨q.val, c400⟩ : Fin 400).val, by omega⟩ : Fin 501) from rfl, this]
    unfold tokCount
    rw [hq, hr]
    congr 1
    exact Finset.sum_congr rfl fun t _ => by rw [e0]
  · rw [if_neg (by rw [hq]; exact c400)]
    by_cases c500 : q.val < 500
    · rw [if_pos (by rw [hq]; exact c500)]
      have := block_tr x0 x1 hx0 hx1 x2 x3 r ⟨q.val - 400, by omega⟩
      rw [show (ix2 r q : S128x501.Idx) = ix2 r (⟨400 + (⟨q.val - 400, by omega⟩ : Fin 100).val, by omega⟩ : Fin 501) from by
            congr 1; exact Fin.ext (by show q.val = 400 + (q.val - 400); omega), this]
      unfold tokCount
      rw [hq, hr]
      congr 1
      exact Finset.sum_congr rfl fun t _ => by rw [e1]
    · rw [if_neg (by rw [hq]; exact c500)]
      have hq500 : q = (⟨500, by omega⟩ : Fin 501) := Fin.ext (by have := q.isLt; show q.val = 500; omega)
      rw [hq500, block_mean x0 x1 x2 x3 r, e3 r, hr]
      unfold liveSum
      congr 1
      exact Finset.sum_congr rfl fun t _ => by rw [e2]

/-! ## The frame's blocks -/

variable (m : (ℓ : Loc nD τ sig) → Buf (Elt Ideal) ℓ) (ρ : Dev nD → PrngReg)

theorem hz : (![0, 0] : Fin 2 → Nat) = fun _ => 0 := funext fun a => by fin_cases a <;> rfl

/-- The four argument arrays as launched on core `c`. -/
abbrev mcc (c : Dev nD) : SIn.Idx → BitVec 32 := m ((c : Thread nD τ).loc main_arg0)
abbrev trr (c : Dev nD) : SIn.Idx → BitVec 32 := m ((c : Thread nD τ).loc main_arg1)
abbrev amt (c : Dev nD) : SIn.Idx → EReal := m ((c : Thread nD τ).loc main_arg2)
abbrev len (c : Dev nD) : SLen.Idx → BitVec 32 := m ((c : Thread nD τ).loc main_arg3)

/-- The specification at core `c`'s arguments. -/
abbrev KG (c : Dev nD) : SOut.Idx → EReal := G (mcc m c) (trr m c) (amt m c) (len m c)

/-- The printed index maps, decided over the grid: at point `t` every window's block is block `(t, 0)` of its array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 128 := by
  have h := t.isLt
  have hN : cfg0.N = 128 := N_0
  omega

/-- The `mcc` window's block at point `t` is rows `128t + r` of the argument. -/
theorem iblk0_apply (c : Dev nD) (t : Fin cfg0.N) (r : Fin 128) (p : Fin 512) :
    (iblk m c 0 t : Vec Ideal S128x512 .i32) (ix2 r p)
      = mcc m c (ix2 (⟨128 * t.val + r.val, by have := t_lt t; omega⟩ : Fin 16384) p) := by
  obtain ⟨e0, e1, -⟩ := idx_facts t
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 128 + 1 * r.val = 128 * t.val + r.val; rw [e0]; omega
  | ⟨1, _⟩ => show win0_0.index t 1 * 512 + 1 * p.val = p.val; rw [e1]; omega

/-- The `tr` window's block at point `t` is rows `128t + r` of the argument. -/
theorem iblk1_apply (c : Dev nD) (t : Fin cfg0.N) (r : Fin 128) (p : Fin 512) :
    (iblk m c 1 t : Vec Ideal S128x512 .i32) (ix2 r p)
      = trr m c (ix2 (⟨128 * t.val + r.val, by have := t_lt t; omega⟩ : Fin 16384) p) := by
  obtain ⟨-, -, e0, e1, -⟩ := idx_facts t
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_1.index t 0 * 128 + 1 * r.val = 128 * t.val + r.val; rw [e0]; omega
  | ⟨1, _⟩ => show win0_1.index t 1 * 512 + 1 * p.val = p.val; rw [e1]; omega

/-- The amount window's block at point `t` is rows `128t + r` of the argument. -/
theorem iblk2_apply (c : Dev nD) (t : Fin cfg0.N) (r : Fin 128) (p : Fin 512) :
    (iblk m c 2 t : Vec Ideal S128x512 .f32) (ix2 r p)
      = amt m c (ix2 (⟨128 * t.val + r.val, by have := t_lt t; omega⟩ : Fin 16384) p) := by
  obtain ⟨-, -, -, -, e0, e1, -⟩ := idx_facts t
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_2.index t 0 * 128 + 1 * r.val = 128 * t.val + r.val; rw [e0]; omega
  | ⟨1, _⟩ => show win0_2.index t 1 * 512 + 1 * p.val = p.val; rw [e1]; omega

/-- The length column the region finds: the lengths reshaped to one column, so its entry (i, 0) is length i. -/
theorem lenCol_apply (c : Dev nD) (i : Fin 16384) :
    (V m c main_v0 : S16384x1.Idx → BitVec 32) (ix2 i (0 : Fin 1)) = len m c (ix1 i) := by
  have e : (V m c main_v0 : S16384x1.Idx → BitVec 32)
      = shapeCast S16384x1 (m ((c : Thread nD τ).loc main_arg3) : S16384.Idx → BitVec 32) shapeCasts_S16384_S16384x1 := by
    dsimp only [V, hostOps0]
    after_results
    rfl
  rw [e]
  exact shapeCast_apply _ _ _ (ix1 i) (by
    rw [Shape.rowMajor_val_one, Shape.rowMajor_val_two]
    show i.val = i.val * 1 + 0
    omega)

/-- The length window's block at point `t` is lengths `128t + r`. -/
theorem iblk3_apply (c : Dev nD) (t : Fin cfg0.N) (r : Fin 128) :
    (iblk m c 3 t : Vec Ideal S128x1 .i32) (ix2 r (0 : Fin 1))
      = len m c (ix1 (⟨128 * t.val + r.val, by have := t_lt t; omega⟩ : Fin 16384)) := by
  obtain ⟨-, -, -, -, -, -, e0, e1, -⟩ := idx_facts t
  rw [← lenCol_apply m c]
  unfold iblk
  rw [View.read_apply]
  show V m c main_v0 _ = V m c main_v0 _
  congr 1
  funext a
  apply Fin.ext
  match a with
  | ⟨0, _⟩ => show win0_3.index t 0 * 128 + 1 * r.val = 128 * t.val + r.val; rw [e0]; omega
  | ⟨1, _⟩ => show win0_3.index t 1 * 1 + 1 * 0 = 0; rw [e1]

/-! ## What each point writes back, the cover, the array, the run -/

/-- Point `t` writes back block `t` of `G` of the arguments. -/
theorem flushed_eq (c : Dev nD) (h0 : ∀ i, (mcc m c i).toNat < 400) (h1 : ∀ i, (trr m c i).toNat < 100)
    (t : Fin cfg0.N) :
    (dats m 0 c).flushed 4 t = ((cfg0.win 4).blk t).view.read (Elt Ideal) (KG m c) := by
  obtain ⟨-, -, -, -, -, -, -, -, e8, e9⟩ := idx_facts t
  rw [flushed4, out0_4_eq_clean, View.canon_unit_zero hz]
  simp only [View.ld_unit_zero (S := S128x512) hz, View.ld_unit_zero (S := S128x1) hz]
  funext j
  rw [View.read_apply]
  refine payload_eq_G (iblk m c 0 t) (iblk m c 1 t) (iblk m c 2 t) (iblk m c 3 t) (mcc m c) (trr m c) (amt m c) (len m c)
    h0 h1 t.val (t_lt t) (iblk0_apply m c t) (iblk1_apply m c t) (iblk2_apply m c t) (iblk3_apply m c t) j _ ?_ ?_
  · show win0_4.index t 0 * 128 + 1 * (j 0).val = 128 * t.val + (j 0).val
    rw [e8]; omega
  · show win0_4.index t 1 * 501 + 1 * (j 1).val = (j 1).val
    rw [e9]; omega

/-- Every index of the result array lies in some point's block: row `i` in point `i / 128`'s. -/
theorem cover (i : S16384x501.Idx) :
    ∃ t : Fin cfg0.N, (cfg0.win 4).flush t = true ∧ i ∈ ((cfg0.win 4).blk t).view.set := by
  have hi0 : (i 0).val < 16384 := (i 0).isLt
  have hi1 : (i 1).val < 501 := (i 1).isLt
  have hN : cfg0.N = 128 := N_0
  obtain ⟨t, ht⟩ : ∃ t : Fin cfg0.N, t.val = (i 0).val / 128 := ⟨⟨(i 0).val / 128, by omega⟩, rfl⟩
  obtain ⟨-, -, -, -, -, -, -, -, e8, e9⟩ := idx_facts t
  refine ⟨t, flush0_4 t, ?_⟩
  show i ∈ ((View.whole main_v1).slice (win0_4.rect t)).set
  rw [View.set_slice_whole, Rect.mem_set_unit]
  intro a
  match a with
  | ⟨0, _⟩ =>
    show win0_4.index t 0 * 128 ≤ (i 0).val ∧ (i 0).val < win0_4.index t 0 * 128 + 128
    rw [e8, ht]
    omega
  | ⟨1, _⟩ =>
    show win0_4.index t 1 * 501 ≤ (i 1).val ∧ (i 1).val < win0_4.index t 1 * 501 + 501
    rw [e9]
    omega

/-- After the run the result array is `G` of the arguments. -/
theorem final (c : Dev nD) (h0 : ∀ i, (mcc m c i).toNat < 400) (h1 : ∀ i, (trr m c i).toNat < 100) :
    (dats m 0 c).arrAt 4 cfg0.N = KG m c :=
  (dats m 0 c).arrAt_eq_of_cover 4 (KG m c) (fun t _ => flushed_eq m c h0 h1 t) cover

/-- The run, read: the result array at `G` of the arguments, the arguments unchanged. -/
theorem run (h0 : ∀ c i, (mcc m c i).toNat < 400) (h1 : ∀ c i, (trr m c i).toNat < 100) :
    θ_run defs (onTc (τ := τ) (main (F := Ideal))) ⟨m, fun _ => 0, ρ⟩ fun r => ∀ c : Dev nD,
      r.2.mem ((c : Thread nD τ).loc main_v1) = KG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (h0 c) (h1 c)), (h c).2⟩) (run_blocks m ρ)

end Cert.Hist.KV

end
-- ==== Proof.RefScatter.lean ====
/-
  The reference's scatter of ones is a count of tokens.

  Into a zero table of 16384 rows the reference adds a one for every (row p, position t), at (row index, token), where
  the row index is `p` and the token is `tok[p, t]`, each first passed through "add the extent when negative" and then
  laid side by side as a pair of words.  An update lands on (b, c) exactly when its pair is (b, c); an update whose pair
  falls outside the table adds nothing.  For tokens inside their range neither word is negative, so the pair of (p, t)
  is (p, tok[p, t]) itself, and entry (b, c) of the result is the number of positions `t` of row `b` with
  `tok[b, t] = c`: zero plus a sum of ones over the updates that land there.
-/
import proofs.«408669_j69681549410810_3_alg».proof.Proof.Gen.ReferenceIdeal.Read
import proofs.«408669_j69681549410810_3_alg».proof.Proof.Spec
import proofs.«408669_j69681549410810_3_alg».proof.Proof.Consts
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.Hist

open Cert.ReferenceIdeal Cert.ReferenceIdeal.Gen
open Idealize.ShloMosaic Idealize.ShloMosaic.ValueIdx

/-- An update lands at operand index i exactly when, on every operand axis, its signed start plus its window
    coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

/-- Rank 2, both axes named by a pair of index words and no window: the update at (p, t) lands at (b, c) exactly
    when the pair read signed at (p, t) is (b, c). -/
theorem pair_resultIdx?_iff {R n P T w : Nat} (d : ScatterDims ⟨2, ![R, n]⟩ ⟨3, ![P, T, 2]⟩ ⟨2, ![P, T]⟩)
    (hu : d.updateWindowDims = []) (hi : d.insertedWindowDims = [0, 1]) (hs : d.scatterDimsToOperandDims = [0, 1])
    (hv : d.indexVectorDim = 2) (idx : IVec ⟨3, ![P, T, 2]⟩ w) (p : Fin P) (t : Fin T) (b : Fin R) (c : Fin n) :
    d.resultIdx? (ix2 p t) idx = some (ix2 b c) ↔
      (idx (ix3 p t 0)).toInt = (b.val : ℤ) ∧ (idx (ix3 p t 1)).toInt = (c.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![R, n]⟩) (si := ⟨3, ![P, T, 2]⟩) (u := ⟨2, ![P, T]⟩) [] [0, 1] [0, 1] 2 wf).start
      (ix2 p t) idx 0 = (idx (ix3 p t 0)).toInt := by
    unfold ScatterDims.start
    rw [dif_pos (by simp)]
    congr 2
    funext a
    refine Fin.ext ?_
    match a with
    | ⟨0, _⟩ => rfl
    | ⟨1, _⟩ => rfl
    | ⟨2, _⟩ => rfl
  have hstart1 : (ScatterDims.mk (s := ⟨2, ![R, n]⟩) (si := ⟨3, ![P, T, 2]⟩) (u := ⟨2, ![P, T]⟩) [] [0, 1] [0, 1] 2 wf).start
      (ix2 p t) idx 1 = (idx (ix3 p t 1)).toInt := by
    unfold ScatterDims.start
    rw [dif_pos (by simp)]
    congr 2
    funext a
    refine Fin.ext ?_
    match a with
    | ⟨0, _⟩ => rfl
    | ⟨1, _⟩ => rfl
    | ⟨2, _⟩ => rfl
  have hwin0 : (ScatterDims.mk (s := ⟨2, ![R, n]⟩) (si := ⟨3, ![P, T, 2]⟩) (u := ⟨2, ![P, T]⟩) [] [0, 1] [0, 1] 2 wf).window
      (ix2 p t) 0 = 0 := by
    unfold ScatterDims.window
    rw [dif_neg (by simp [Shape.kept, List.finRange])]
  have hwin1 : (ScatterDims.mk (s := ⟨2, ![R, n]⟩) (si := ⟨3, ![P, T, 2]⟩) (u := ⟨2, ![P, T]⟩) [] [0, 1] [0, 1] 2 wf).window
      (ix2 p t) 1 = 0 := by
    unfold ScatterDims.window
    rw [dif_neg (by simp [Shape.kept, List.finRange])]
  rw [hstart0, hstart1, hwin0, hwin1]
  show (idx (ix3 p t 0)).toInt + ((0 : ℕ) : ℤ) = (b.val : ℤ) ∧ (idx (ix3 p t 1)).toInt + ((0 : ℕ) : ℤ) = (c.val : ℤ) ↔ _
  simp

/-- P × T updates added into an R × n table, each at the pair of signed, unclamped words its position names: entry
    (b, c) ends at its old value plus the updates whose pair is (b, c). -/
theorem scatterAdd_pair_apply {R n P T w : Nat} (d : ScatterDims ⟨2, ![R, n]⟩ ⟨3, ![P, T, 2]⟩ ⟨2, ![P, T]⟩)
    (hu : d.updateWindowDims = []) (hi : d.insertedWindowDims = [0, 1]) (hs : d.scatterDimsToOperandDims = [0, 1])
    (hv : d.indexVectorDim = 2)
    (x : (⟨2, ![R, n]⟩ : Shape).Idx → EReal) (idx : IVec ⟨3, ![P, T, 2]⟩ w) (upd : (⟨2, ![P, T]⟩ : Shape).Idx → EReal)
    (b : Fin R) (c : Fin n) :
    Ideal.hostScatterAdd d x idx upd (ix2 b c)
      = x (ix2 b c) + ∑ p : Fin P, ∑ t : Fin T,
          (if (idx (ix3 p t 0)).toInt = (b.val : ℤ) ∧ (idx (ix3 p t 1)).toInt = (c.val : ℤ) then upd (ix2 p t) else 0) := by
  unfold Ideal.hostScatterAdd
  congr 1
  rw [Finset.sum_filter, sum_idx2]
  refine Finset.sum_congr rfl fun p _ => ?_
  refine Finset.sum_congr rfl fun t _ => ?_
  simp only [pair_resultIdx?_iff d hu hi hs hv idx p t b c]

/-- "Add the extent when negative" leaves a word below 2³¹ as it is: such a word is not negative. -/
theorem wrap_eq (x k : BitVec 32) (hx : x.toNat < 2 ^ 31) :
    Scalar.select (IntOp.cmpi .slt x 0#32) (IntOp.addi x k) x = x := by
  have hne : ¬ IntOp.cmpi .slt x 0#32 = 1#1 := by
    rw [StableHlo.Predicate.slt_iff_toNat hx (by decide)]
    exact Nat.not_lt_zero _
  rw [eq_zero_of_ne_one hne, select_zero]

/-- A zero table of 16384 rows and n bins, a one for every (row p, position t) at the pair (p, tok[p, t]), tokens
    below n: entry (b, c) is the number of positions t of row b whose token is c. -/
theorem scatter_count {n : Nat} (hn : n ≤ 2 ^ 31)
    (d : ScatterDims ⟨2, ![16384, n]⟩ ⟨3, ![16384, 512, 2]⟩ ⟨2, ![16384, 512]⟩)
    (hu : d.updateWindowDims = []) (hi : d.insertedWindowDims = [0, 1]) (hs : d.scatterDimsToOperandDims = [0, 1])
    (hv : d.indexVectorDim = 2)
    (x : (⟨2, ![16384, n]⟩ : Shape).Idx → EReal) (hx : ∀ i, x i = 0)
    (idx : IVec ⟨3, ![16384, 512, 2]⟩ 32)
    (upd : (⟨2, ![16384, 512]⟩ : Shape).Idx → EReal) (hupd : ∀ j, upd j = 1)
    (tok : SIn.Idx → BitVec 32) (htok : ∀ i, (tok i).toNat < n)
    (hrow : ∀ (p : Fin 16384) (t : Fin 512), idx (ix3 p t 0) = BitVec.ofNat 32 p.val)
    (hcol : ∀ (p : Fin 16384) (t : Fin 512), idx (ix3 p t 1) = tok (ix2 p t))
    (b : Fin 16384) (c : Fin n) :
    Ideal.hostScatterAdd d x idx upd (ix2 b c) = tokCount tok b c.val := by
  rw [scatterAdd_pair_apply d hu hi hs hv, hx, zero_add]
  unfold tokCount
  have hrowI : ∀ (p : Fin 16384) (t : Fin 512), (idx (ix3 p t 0)).toInt = (p.val : ℤ) := fun p t => by
    rw [hrow p t]
    exact StableHlo.Predicate.toInt_ofNat_small p.val (by have := p.isLt; omega)
  have hcolI : ∀ (p : Fin 16384) (t : Fin 512), (idx (ix3 p t 1)).toInt = ((tok (ix2 p t)).toNat : ℤ) := fun p t => by
    rw [hcol p t]
    exact StableHlo.Predicate.toInt_eq_toNat_of_lt (by have := htok (ix2 p t); omega)
  rw [Finset.sum_eq_single b]
  · refine Finset.sum_congr rfl fun t _ => ?_
    rw [hrowI b t, hcolI b t, hupd]
    refine if_congr ?_ rfl rfl
    constructor
    · intro h; exact_mod_cast h.2
    · intro h; exact ⟨rfl, by exact_mod_cast h⟩
  · intro p _ hpb
    refine Finset.sum_eq_zero fun t _ => ?_
    rw [hrowI p t]
    refine if_neg fun h => hpb (Fin.ext ?_)
    exact_mod_cast h.1
  · intro h; exact absurd (Finset.mem_univ b) h

/-- Over 400 bins: the index array's first word at (p, t) is the row number p. -/
theorem mcc_row (x0 : IVec S16384x512 32) (p : Fin 16384) (t : Fin 512) :
    Cert.ReferenceIdeal.Read.val_main_v16 (F := Ideal) x0 (ix3 p t 0) = BitVec.ofNat 32 p.val := by
  unfold Cert.ReferenceIdeal.Read.val_main_v16
  refine (concatenate_pair_apply_left (2 : Fin 3) (Cert.ReferenceIdeal.Read.val_main_v14 (F := Ideal))
    (Cert.ReferenceIdeal.Read.val_main_v15 (F := Ideal) x0) _ (ix3 p t (0 : Fin 2)) rfl (ix3 p t (0 : Fin 1))
    (fun a => by match a with | ⟨0, _⟩ => rfl | ⟨1, _⟩ => rfl | ⟨2, _⟩ => rfl)).trans ?_
  rw [Cert.ReferenceIdeal.Read.val_main_v14_apply, Cert.ReferenceIdeal.Read.val_main_v13_apply,
    Cert.ReferenceIdeal.Read.val_main_v7_apply, Cert.ReferenceIdeal.Read.val_main_v4_apply,
    Cert.ReferenceIdeal.Read.val_main_v6_apply, Cert.ReferenceIdeal.Read.val_main_v2_apply,
    Cert.ReferenceIdeal.Read.val_main_v1_apply]
  exact wrap_eq _ _ (by
    show (BitVec.ofNat 32 p.val).toNat < 2 ^ 31
    rw [BitVec.toNat_ofNat]
    have := p.isLt
    omega)

/-- Over 400 bins: the index array's second word at (p, t) is the token at (p, t), for tokens in range. -/
theorem mcc_col (x0 : IVec S16384x512 32) (h0 : ∀ i, (x0 i).toNat < 400) (p : Fin 16384) (t : Fin 512) :
    Cert.ReferenceIdeal.Read.val_main_v16 (F := Ideal) x0 (ix3 p t 1) = x0 (ix2 p t) := by
  unfold Cert.ReferenceIdeal.Read.val_main_v16
  refine (concatenate_pair_apply_right (2 : Fin 3) (Cert.ReferenceIdeal.Read.val_main_v14 (F := Ideal))
    (Cert.ReferenceIdeal.Read.val_main_v15 (F := Ideal) x0) _ (ix3 p t (1 : Fin 2)) rfl rfl (ix3 p t (0 : Fin 1))
    (fun a ha => by
      match a with
      | ⟨0, _⟩ => rfl
      | ⟨1, _⟩ => rfl
      | ⟨2, _⟩ => exact absurd rfl ha)
    rfl).trans ?_
  have e : Cert.ReferenceIdeal.Read.idx_main_v15 (ix3 p t (0 : Fin 1)) = ix2 p t := by
    funext a
    match a with
    | ⟨0, _⟩ => rfl
    | ⟨1, _⟩ => rfl
  rw [Cert.ReferenceIdeal.Read.val_main_v15_apply, e, Cert.ReferenceIdeal.Read.val_main_v12_apply,
    Cert.ReferenceIdeal.Read.val_main_v9_apply, Cert.ReferenceIdeal.Read.val_main_v11_apply]
  exact wrap_eq _ _ (by have := h0 (ix2 p t); omega)

/-- Over 100 bins: the index array's first word at (p, t) is the row number p. -/
theorem tr_row (x1 : IVec S16384x512 32) (p : Fin 16384) (t : Fin 512) :
    Cert.ReferenceIdeal.Read.val_main_v37 (F := Ideal) x1 (ix3 p t 0) = BitVec.ofNat 32 p.val := by
  unfold Cert.ReferenceIdeal.Read.val_main_v37
  refine (concatenate_pair_apply_left (2 : Fin 3) (Cert.ReferenceIdeal.Read.val_main_v35 (F := Ideal))
    (Cert.ReferenceIdeal.Read.val_main_v36 (F := Ideal) x1) _ (ix3 p t (0 : Fin 2)) rfl (ix3 p t (0 : Fin 1))
    (fun a => by match a with | ⟨0, _⟩ => rfl | ⟨1, _⟩ => rfl | ⟨2, _⟩ => rfl)).trans ?_
  rw [Cert.ReferenceIdeal.Read.val_main_v35_apply, Cert.ReferenceIdeal.Read.val_main_v34_apply,
    Cert.ReferenceIdeal.Read.val_main_v28_apply, Cert.ReferenceIdeal.Read.val_main_v25_apply,
    Cert.ReferenceIdeal.Read.val_main_v27_apply, Cert.ReferenceIdeal.Read.val_main_v23_apply,
    Cert.ReferenceIdeal.Read.val_main_v22_apply]
  exact wrap_eq _ _ (by
    show (BitVec.ofNat 32 p.val).toNat < 2 ^ 31
    rw [BitVec.toNat_ofNat]
    have := p.isLt
    omega)

/-- Over 100 bins: the index array's second word at (p, t) is the token at (p, t), for tokens in range. -/
theorem tr_col (x1 : IVec S16384x512 32) (h1 : ∀ i, (x1 i).toNat < 100) (p : Fin 16384) (t : Fin 512) :
    Cert.ReferenceIdeal.Read.val_main_v37 (F := Ideal) x1 (ix3 p t 1) = x1 (ix2 p t) := by
  unfold Cert.ReferenceIdeal.Read.val_main_v37
  refine (concatenate_pair_apply_right (2 : Fin 3) (Cert.ReferenceIdeal.Read.val_main_v35 (F := Ideal))
    (Cert.ReferenceIdeal.Read.val_main_v36 (F := Ideal) x1) _ (ix3 p t (1 : Fin 2)) rfl rfl (ix3 p t (0 : Fin 1))
    (fun a ha => by
      match a with
      | ⟨0, _⟩ => rfl
      | ⟨1, _⟩ => rfl
      | ⟨2, _⟩ => exact absurd rfl ha)
    rfl).trans ?_
  have e : Cert.ReferenceIdeal.Read.idx_main_v36 (ix3 p t (0 : Fin 1)) = ix2 p t := by
    funext a
    match a with
    | ⟨0, _⟩ => rfl
    | ⟨1, _⟩ => rfl
  rw [Cert.ReferenceIdeal.Read.val_main_v36_apply, e, Cert.ReferenceIdeal.Read.val_main_v33_apply,
    Cert.ReferenceIdeal.Read.val_main_v30_apply, Cert.ReferenceIdeal.Read.val_main_v32_apply]
  exact wrap_eq _ _ (by have := h1 (ix2 p t); omega)

/-- Over 400 bins: the scatter's entry at (b, c) is the number of row b's `mcc` tokens equal to c. -/
theorem scatter_count_mcc (x0 : IVec S16384x512 32) (h0 : ∀ i, (x0 i).toNat < 400) (b : Fin 16384) (c : Fin 400) :
    Cert.ReferenceIdeal.Read.val_main_v18 (F := Ideal) x0 (ix2 b c) = tokCount x0 b c.val := by
  unfold Cert.ReferenceIdeal.Read.val_main_v18
  refine scatter_count (n := 400) (by norm_num) scatter_S16384x400_S16384x512x2_S16384x512_n_01_01_2 rfl rfl rfl rfl
    (Cert.ReferenceIdeal.Read.val_main_v0 (F := Ideal)) (fun i => ?_)
    (Cert.ReferenceIdeal.Read.val_main_v16 (F := Ideal) x0)
    (Cert.ReferenceIdeal.Read.val_main_v17 (F := Ideal)) (fun j => ?_) x0 h0 (mcc_row x0) (mcc_col x0 h0) b c
  · rw [Cert.ReferenceIdeal.Read.val_main_v0_apply, Cert.ReferenceIdeal.Read.val_main_cst_apply]
    exact ofBits_zero
  · rw [Cert.ReferenceIdeal.Read.val_main_v17_apply, Cert.ReferenceIdeal.Read.val_main_cst_3_apply]
    exact ofBits_one

/-- Over 100 bins: the scatter's entry at (b, c) is the number of row b's `tr` tokens equal to c. -/
theorem scatter_count_tr (x1 : IVec S16384x512 32) (h1 : ∀ i, (x1 i).toNat < 100) (b : Fin 16384) (c : Fin 100) :
    Cert.ReferenceIdeal.Read.val_main_v39 (F := Ideal) x1 (ix2 b c) = tokCount x1 b c.val := by
  unfold Cert.ReferenceIdeal.Read.val_main_v39
  refine scatter_count (n := 100) (by norm_num) scatter_S16384x100_S16384x512x2_S16384x512_n_01_01_2 rfl rfl rfl rfl
    (Cert.ReferenceIdeal.Read.val_main_v21 (F := Ideal)) (fun i => ?_)
    (Cert.ReferenceIdeal.Read.val_main_v37 (F := Ideal) x1)
    (Cert.ReferenceIdeal.Read.val_main_v38 (F := Ideal)) (fun j => ?_) x1 h1 (tr_row x1) (tr_col x1 h1) b c
  · rw [Cert.ReferenceIdeal.Read.val_main_v21_apply, Cert.ReferenceIdeal.Read.val_main_cst_5_apply]
    exact ofBits_zero
  · rw [Cert.ReferenceIdeal.Read.val_main_v38_apply, Cert.ReferenceIdeal.Read.val_main_cst_10_apply]
    exact ofBits_one

end Cert.Hist

end
-- ==== Proof.RefValue.lean ====
/-
  The reference's result is the specification `G`.

  The reference scatters a one for every (row, position) into a zero table at (row, token) — the row index and the
  token each first passed through "add the extent when negative" — and divides the table by 512; it does so once over
  400 bins for the `mcc` tokens and once over 100 bins for the `tr` tokens.  For tokens inside their ranges the
  scatter's entry at (row b, bin c) is the number of positions of row b whose token is c, an update landing on (b, c)
  exactly when its row is b and its token is c; and dividing by 512 is multiplying by 1/512.  The last column is the
  row's sum of `sign(a)·log1p|a|` times the 0/1 mask "position below the row's length", divided by the length; a
  product with the mask is the value where the mask is one and zero where it is zero.  The three parts are joined
  along the second axis.
-/
import proofs.«408669_j69681549410810_3_alg».proof.Proof.Gen.ReferenceIdeal.Read
import proofs.«408669_j69681549410810_3_alg».proof.Proof.Spec
import proofs.«408669_j69681549410810_3_alg».proof.Proof.RefScatter
import proofs.«408669_j69681549410810_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hist

open Cert.ReferenceIdeal Cert.ReferenceIdeal.Gen
open Idealize.ShloMosaic Idealize.ShloMosaic.ValueIdx

/-! ### The last column: the masked mean -/

/-- The mask's bit at (row b, position t) compares the position, as a word, with the row's length. -/
private theorem mask_bit (x3 : IVec S16384 32) (b : Fin 16384) (t : Fin 512) :
    Cert.ReferenceIdeal.Read.val_main_v51 (F := Ideal) x3 (ix2 b t)
      = IntOp.cmpi .slt (BitVec.ofNat 32 t.val) (x3 (ix1 b)) := by
  rw [Read.val_main_v51_apply, Read.val_main_v49_apply, Read.val_main_v47_apply, Read.val_main_v46_apply,
    Read.val_main_v50_apply, Read.val_main_v48_apply]
  have e : Read.idx_main_v48 (Read.idx_main_v50 (ix2 b t : S16384x512.Idx)) = ix1 b := by
    funext a; match a with | ⟨0, _⟩ => rfl
  rw [e]

/-- The log-scaled amount at an index is `logVar` of the amount there. -/
private theorem logvar_at (x2 : FVec Ideal S16384x512 .f32) (i : S16384x512.Idx) :
    Cert.ReferenceIdeal.Read.val_main_v45 (F := Ideal) x2 i = logVar (x2 i) := rfl

/-- A one-bit word read as a real is 1 when the bit is set and 0 otherwise, so the product with it keeps or drops. -/
private theorem mul_bit (v : EReal) (m : BitVec 1) :
    v * (((m.toNat : ℕ) : ℝ) : EReal) = if m = 1#1 then v else 0 := by
  by_cases hm : m = 1#1
  · subst hm
    rw [if_pos rfl]
    simp
  · have h0 : m = 0#1 := eq_zero_of_ne_one hm
    subst h0
    rw [if_neg (by decide)]
    simp

/-- One term of the row's sum: the log-scaled amount where the position is live, zero elsewhere. -/
private theorem term_at (x2 : FVec Ideal S16384x512 .f32) (x3 : IVec S16384 32) (b : Fin 16384) (t : Fin 512) :
    Cert.ReferenceIdeal.Read.val_main_v53 (F := Ideal) x2 x3 (ix2 b t)
      = if live (x3 (ix1 b)) t then logVar (x2 (ix2 b t)) else 0 := by
  rw [Read.val_main_v53_apply, Read.val_main_v52_apply, mask_bit, logvar_at]
  exact mul_bit _ _

/-- The row's sum is `liveSum`. -/
private theorem sum_at (x2 : FVec Ideal S16384x512 .f32) (x3 : IVec S16384 32) (b : Fin 16384) :
    Cert.ReferenceIdeal.Read.val_main_v54 (F := Ideal) x2 x3 (ix1 b) = liveSum x2 (x3 (ix1 b)) b := by
  rw [Read.val_main_v54_apply, Read.val_main_cst_12_apply, Ideal.ofBits_def, ofBits_zero, zero_add]
  unfold liveSum
  refine Finset.sum_congr rfl fun t _ => ?_
  have e : Read.idx_main_v54 (ix1 b : S16384.Idx) t = ix2 b t := by
    funext a; match a with | ⟨0, _⟩ => rfl | ⟨1, _⟩ => rfl
  rw [e]
  exact term_at x2 x3 b t

/-- The last column: the row's live sum divided by its length. -/
private theorem mean_at (x2 : FVec Ideal S16384x512 .f32) (x3 : IVec S16384 32) (b : Fin 16384) (c : Fin 1) :
    Cert.ReferenceIdeal.Read.val_main_v57 (F := Ideal) x2 x3 (ix2 b c)
      = Ideal.div (liveSum x2 (x3 (ix1 b)) b) (((x3 (ix1 b)).toInt : ℝ) : EReal) := by
  rw [Read.val_main_v57_apply]
  have e : Read.idx_main_v57 (ix2 b c : S16384x1.Idx) = ix1 b := by
    funext a; match a with | ⟨0, _⟩ => rfl
  rw [e, Read.val_main_v56_apply, Read.val_main_v55_apply, sum_at]
  rfl

/-! ### The two histograms -/

/-- Dividing by the word of 512 is multiplying by 1/512. -/
private theorem div_512 (v : EReal) : Ideal.div v (Ideal.ofBits .f32 0x44000000#32) = v * invT := by
  rw [ofBits_512, Ideal.div_coe (by norm_num)]
  rfl

/-- Columns 0..399: the `mcc` count times 1/512. -/
private theorem mcc_at (x0 : IVec S16384x512 32) (h0 : ∀ i, (x0 i).toNat < 400) (b : Fin 16384) (c : Fin 400) :
    Cert.ReferenceIdeal.Read.val_main_v20 (F := Ideal) x0 (ix2 b c) = tokCount x0 b c.val * invT := by
  rw [Read.val_main_v20_apply, Read.val_main_v19_apply, Read.val_main_cst_4_apply, scatter_count_mcc x0 h0 b c]
  exact div_512 _

/-- Columns 400..499: the `tr` count times 1/512. -/
private theorem tr_at (x1 : IVec S16384x512 32) (h1 : ∀ i, (x1 i).toNat < 100) (b : Fin 16384) (c : Fin 100) :
    Cert.ReferenceIdeal.Read.val_main_v41 (F := Ideal) x1 (ix2 b c) = tokCount x1 b c.val * invT := by
  rw [Read.val_main_v41_apply, Read.val_main_v40_apply, Read.val_main_cst_11_apply, scatter_count_tr x1 h1 b c]
  exact div_512 _

/-! ### The join -/

/-- For tokens inside their ranges the reference's result array is `G` of the arguments. -/
theorem ref_eq_G (x0 x1 : IVec S16384x512 32) (x2 : FVec Ideal S16384x512 .f32) (x3 : IVec S16384 32)
    (h0 : ∀ i, (x0 i).toNat < 400) (h1 : ∀ i, (x1 i).toNat < 100) :
    Cert.ReferenceIdeal.Read.val_main_v58 (F := Ideal) x0 x1 x2 x3 = G x0 x1 x2 x3 := by
  funext i
  obtain ⟨b, j, rfl⟩ : ∃ (b : Fin 16384) (j : Fin 501), i = ix2 b j := ⟨i 0, i 1, eq_ix2 i⟩
  have hoff : ∀ (n : Nat) (c : Fin n) (d : Fin (⟨2, ![16384, n]⟩ : Shape).rank),
      d.cast (rfl : (2 : Nat) = 2) ≠ (1 : Fin S16384x501.rank) →
        ((ix2 b c : (⟨2, ![16384, n]⟩ : Shape).Idx) d).val = ((ix2 b j : S16384x501.Idx) (d.cast rfl)).val := by
    intro n c d hd
    match d with
    | ⟨0, _⟩ => rfl
    | ⟨1, _⟩ => exact absurd rfl hd
  unfold Read.val_main_v58
  by_cases hA : j.val < 400
  · refine (concatenate_apply_piece (1 : Fin S16384x501.rank) _ _ (ix2 b j) 0 (by simp) S16384x400
      (Read.val_main_v20 (F := Ideal) x0) rfl rfl 0 rfl (ix2 b ⟨j.val, hA⟩) (hoff 400 _) (Nat.zero_add _)).trans ?_
    rw [mcc_at x0 h0]
    show _ = if j.val < 400 then _ else _
    rw [if_pos hA]
  · by_cases hB : j.val < 500
    · refine (concatenate_apply_piece (1 : Fin S16384x501.rank) _ _ (ix2 b j) 1 (by simp) S16384x100
        (Read.val_main_v41 (F := Ideal) x1) rfl rfl 400 rfl (ix2 b ⟨j.val - 400, by omega⟩) (hoff 100 _)
        (by show 400 + (j.val - 400) = j.val; omega)).trans ?_
      rw [tr_at x1 h1]
      show _ = if j.val < 400 then _ else if j.val < 500 then _ else _
      rw [if_neg hA, if_pos hB]
    · refine (concatenate_apply_piece (1 : Fin S16384x501.rank) _ _ (ix2 b j) 2 (by simp) S16384x1
        (Read.val_main_v57 (F := Ideal) x2 x3) rfl rfl 500 rfl (ix2 b ⟨j.val - 500, by omega⟩) (hoff 1 _)
        (by show 500 + (j.val - 500) = j.val; omega)).trans ?_
      rw [mean_at]
      show _ = if j.val < 400 then _ else if j.val < 500 then _ else _
      rw [if_neg hA, if_neg hB]

end Cert.Hist

end
-- ==== Proof.PreDecode.lean ====
/-
  The precondition read back: every token is inside its range.

  The precondition is one bit: the conjunction of "every amount is finite", "every `mcc` token `w` has
  `0 ≤ w` and `w < 400`" and "every `tr` token `w` has `0 ≤ w` and `w < 100`", the comparisons signed on 32-bit
  words and each "every" an and-reduction over the whole array.  A word that is at least 0 and below `n` as a
  signed number is below `n` as a natural number.
-/
import proofs.«408669_j69681549410810_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Hist

open Idealize.ShloMosaic Idealize.ShloMosaic.ValueIdx

/-- A 32-bit word that is at least 0 and below `n` as a signed number (`n` itself below 2³¹) is below `n` as a
    natural number: a nonnegative signed word has a clear top bit, so it reads the same signed and unsigned. -/
private theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  have hge : (0 : Int) ≤ w.toInt := by
    have := IntOp.cmpi_sge.1 h0
    rwa [show (0#32 : BitVec 32).toInt = 0 from by decide] at this
  have hw : w.toInt = w.toNat := BitVec.toInt_eq_toNat_of_lt (BitVec.toInt_pos_iff.1 hge)
  have hlt := IntOp.cmpi_slt.1 h1
  rw [hw, StableHlo.Predicate.toInt_ofNat_small n hn] at hlt
  exact_mod_cast hlt

/-- Where the precondition's bit is one, every `mcc` token is below 400 and every `tr` token below 100, as naturals. -/
theorem tokens_in_range [Cert.Pre_finite_inputs.Facts]
    (a0 a1 : IVec Cert.Pre_finite_inputs.S16384x512 32) (a2 : FVec Ideal Cert.Pre_finite_inputs.S16384x512 .f32)
    (a3 : IVec Cert.Pre_finite_inputs.S16384 32)
    (h : Cert.Pre_finite_inputs.fn (F := Ideal) a0 a1 a2 a3 = fun _ => 1#1) :
    (∀ i, (a0 i).toNat < 400) ∧ (∀ i, (a1 i).toNat < 100) := by
  -- the one bit, with the chain of operations in view
  have hbit := congrFun h ix0
  dsimp only [Cert.Pre_finite_inputs.fn, Cert.Pre_finite_inputs.fn_part1] at hbit
  -- the outer conjunctions: (all amounts finite ∧ all `mcc` tokens in range) ∧ all `tr` tokens in range
  obtain ⟨hfm, htr⟩ := IntOp.andi_eq_one.1 hbit
  obtain ⟨_, hmcc⟩ := IntOp.andi_eq_one.1 hfm
  -- the scalar shape has one index, so each reduction below is over the whole array
  haveI : Subsingleton Cert.Pre_finite_inputs.S_.Idx := ⟨fun a b => funext fun d => d.elim0⟩
  refine ⟨fun i => ?_, fun i => ?_⟩
  · -- an and-reduction that is one had a one at every index; there the bit is (0 ≤ w) ∧ (w < 400)
    obtain ⟨e0, e1⟩ := IntOp.andi_eq_one.1 (Host.reduce_andi_all _ _ _ _ _ hmcc i)
    exact toNat_lt_of_signed_range (a0 i) 400 (by norm_num) e0 e1
  · -- likewise (0 ≤ w) ∧ (w < 100)
    obtain ⟨e0, e1⟩ := IntOp.andi_eq_one.1 (Host.reduce_andi_all _ _ _ _ _ htr i)
    exact toNat_lt_of_signed_range (a1 i) 100 (by norm_num) e0 e1

end Cert.Hist

end
-- ==== Proof.lean ====
/-
  The kernel against its reference: per row, the 400-bin histogram of the `mcc` tokens and the 100-bin histogram of the
  `tr` tokens, each over 512, and the masked mean of `sign(a) · log1p|a|` over the row's live positions.

  The kernel clips each token into its range, writes it in two digits (base 20 for `mcc`, base 10 for `tr` moved up by
  20), builds a high-digit and a low-digit one-hot, and lets the matrix unit sum, over the 512 positions, the products
  of the one-hots of eight rows at a time; the diagonal blocks of that table hold, at (high digit, low digit), the number
  of positions whose token has those digits.  The reference scatters a one per position into a zero table and divides
  by 512.  For tokens inside their ranges — the precondition: the tokens index the reference's scatter axes — both are
  the count of positions with that token, times 1/512: the clip is the identity, a product of two digit indicators is the
  indicator of the token, and dividing by 512 is multiplying by the exact 1/512 the kernel's constant denotes.  The mean
  is on both sides the same sum over the live positions divided by the length; the kernel selects zero off the mask where
  the reference multiplies by a 0/1 mask, and its sign, spelt through the sign bit, is the sign function.

  The frames of the two kernel programs and the idealization's one rewrite (the sign bit read as a comparison with
  zero) are the generated ones; the reference's frame is its generated run.  The value of the kernel's result array is
  read off the generated frame's blockwise run: the body's stored value is unfolded to a regular layout, read index by
  index, and the 128 blocks cover the array.
-/
import proofs.«408669_j69681549410810_3_alg».proof.Defs
import proofs.«408669_j69681549410810_3_alg».proof.Proof.Gen.Kernel
import proofs.«408669_j69681549410810_3_alg».proof.Proof.Gen.Kernel.Skeleton
import proofs.«408669_j69681549410810_3_alg».proof.Proof.Gen.Kernel.Launch
import proofs.«408669_j69681549410810_3_alg».proof.Proof.Gen.Kernel.Points
import proofs.«408669_j69681549410810_3_alg».proof.Proof.Gen.Kernel.Frame
import proofs.«408669_j69681549410810_3_alg».proof.Proof.Gen.KernelIdeal
import proofs.«408669_j69681549410810_3_alg».proof.Proof.Gen.KernelIdeal.Skeleton
import proofs.«408669_j69681549410810_3_alg».proof.Proof.Gen.KernelIdeal.Launch
import proofs.«408669_j69681549410810_3_alg».proof.Proof.Gen.KernelIdeal.Points
import proofs.«408669_j69681549410810_3_alg».proof.Proof.Gen.KernelIdeal.Frame
import proofs.«408669_j69681549410810_3_alg».proof.Proof.Gen.ReferenceIdeal
import proofs.«408669_j69681549410810_3_alg».proof.Proof.Gen.Pre_finite_inputs
import proofs.«408669_j69681549410810_3_alg».proof.Proof.Gen.KernelIdeal.Value
import proofs.«408669_j69681549410810_3_alg».proof.Proof.Gen.ReferenceIdeal.Run
import proofs.«408669_j69681549410810_3_alg».proof.Proof.Gen.ReferenceIdeal.Read
import proofs.«408669_j69681549410810_3_alg».proof.Proof.KernelValue
import proofs.«408669_j69681549410810_3_alg».proof.Proof.RefValue
import proofs.«408669_j69681549410810_3_alg».proof.Proof.PreDecode
import Idealize.ShloMosaic.Adequacy
import Idealize.ShloMosaic.Init

noncomputable section

namespace Cert.Proof

open Idealize.ShloMosaic Idealize.ShloMosaic.TcCoe Idealize.SL.Sem Cert.Kernel

/-- The word-level kernel runs and leaves its arguments as they were: the generated frame. -/
theorem frame_k : @Cert.frame_Kernel Cert.Kernel.Gen.facts Cert.Pre_finite_inputs.Gen.facts :=
  fun m ρ _ => Cert.Kernel.Gen.frame m ρ

/-- The idealized kernel likewise. -/
theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The one rewrite of the idealization: one with a value's sign bit is minus one below zero and one otherwise. -/
theorem preserves : Cert.preserves_Kernel_KernelIdeal :=
  IdealRules.sign_bit.statement Cert.KernelIdeal.S128x512 .f32

/-- From memories that agree on the arguments, with every token in its range, both programs end with the result array
    at `G` of the arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hk : ∀ c : Dev Cert.KernelIdeal.nD,
      (∀ i, (Cert.Hist.KV.mcc m c i).toNat < 400) ∧ (∀ i, (Cert.Hist.KV.trr m c i).toNat < 100) :=
    fun c => Cert.Hist.tokens_in_range _ _ _ _ (hpre c)
  refine ⟨fun c => Cert.Hist.KV.KG m c, Cert.Hist.KV.run m ρ (fun c => (hk c).1) (fun c => (hk c).2), ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v58_eq _ _ _ _).trans ?_
  rw [(hagree c).1, (hagree c).2.1, (hagree c).2.2.1, (hagree c).2.2.2]
  exact Cert.Hist.ref_eq_G _ _ _ _ (hk c).1 (hk c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
